-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x1 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S500000x128 .f32) (main_arg1 : FVec F S500000x128 .f32) (main_arg2 : FVec F S128x64 .f32) (main_arg3 : FVec F S64 .f32) (main_arg4 : FVec F S64x1 .f32) (main_arg5 : FVec F S1 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S500000x128 : Shape := ⟨2, ![500000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S500000x256 : Shape := ⟨2, ![500000, 256]⟩
abbrev S500000x2 : Shape := ⟨2, ![500000, 2]⟩
abbrev S2000x128 : Shape := ⟨2, ![2000, 128]⟩
abbrev S2000x256 : Shape := ⟨2, ![2000, 256]⟩
abbrev S2000x2 : Shape := ⟨2, ![2000, 2]⟩
abbrev S2000x64 : Shape := ⟨2, ![2000, 64]⟩
abbrev S2000x1 : Shape := ⟨2, ![2000, 1]⟩
abbrev S500000x1x256 : Shape := ⟨3, ![500000, 1, 256]⟩
abbrev S500000x2x1 : Shape := ⟨3, ![500000, 2, 1]⟩

abbrev nBuf : Space → Nat
  | .hbm => 12
  | .vmem => 12
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x64, .f32⟩
  | .hbm, ⟨7, _⟩ => ⟨S1x1, .f32⟩
  | .hbm, ⟨8, _⟩ => ⟨S500000x256, .f32⟩
  | .hbm, ⟨9, _⟩ => ⟨S500000x2, .f32⟩
  | .hbm, ⟨10, _⟩ => ⟨S500000x1x256, .f32⟩
  | .hbm, ⟨11, _⟩ => ⟨S500000x2x1, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S2000x256, .f32⟩
  | .local _ .vmem, ⟨9, _⟩ => ⟨S2000x256, .f32⟩
  | .local _ .vmem, ⟨10, _⟩ => ⟨S2000x2, .f32⟩
  | .local _ .vmem, ⟨11, _⟩ => ⟨S2000x2, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S1x64 : S64.ShapeCasts S1x64
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bitsLt_bf16_f32 : FTy.bits .bf16 < FTy.bits .f32
  broadcasts_S1x64_S2000x64 : S1x64.Broadcasts S2000x64
  broadcasts_S1x1_S2000x1 : S1x1.Broadcasts S2000x1
  broadcasts_S2000x1_S2000x128 : S2000x1.Broadcasts S2000x128
  concatenates_S2000x128_S2000x128_S2000x256_d1 : Shape.Concatenates [S2000x128, S2000x128] S2000x256 1
  inb_S2000x256_S2000x256_0_0 : ∀ a, (![0, 0] : Fin 2 → Nat) a + S2000x256.size a ≤ S2000x256.size a
  h_S2000x256 : 0 < S2000x256.numel
  concatenates_S2000x1_S2000x1_S2000x2_d1 : Shape.Concatenates [S2000x1, S2000x1] S2000x2 1
  inb_S2000x2_S2000x2_0_0 : ∀ a, (![0, 0] : Fin 2 → Nat) a + S2000x2.size a ≤ S2000x2.size a
  h_S2000x2 : 0 < S2000x2.numel
  shapeCasts_S500000x256_S500000x1x256 : S500000x256.ShapeCasts S500000x1x256
  shapeCasts_S500000x2_S500000x2x1 : S500000x2.ShapeCasts S500000x2x1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S500000x256.size a
  hwx0_6 : ∀ i : grid0.Coords, EltTy.bits .f32 = 32 ∨ (Rect.block (s := S500000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x2.size a ≤ S500000x2.size a
  hwx0_7 : ∀ i : grid0.Coords, EltTy.bits .f32 = 32 ∨ (Rect.block (s := S500000x2) S2000x2.size (cc0_transform_7 i) (hinb0_7 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S500000x64 : Shape := ⟨2, ![500000, 64]⟩
abbrev S1x64 : Shape := ⟨2, ![1, 64]⟩
abbrev S_ : Shape := ⟨0, ![]⟩
abbrev S500000x1 : Shape := ⟨2, ![500000, 1]⟩
abbrev S1x1 : Shape := ⟨2, ![1, 1]⟩
abbrev S500000x1x1 : Shape := ⟨3, ![500000, 1, 1]⟩
abbrev S500000x2x1 : Shape := ⟨3, ![500000, 2, 1]⟩
abbrev S500000x256 : Shape := ⟨2, ![500000, 256]⟩
abbrev S500000x1x256 : Shape := ⟨3, ![500000, 1, 256]⟩

abbrev nBuf : Space → Nat
  | .hbm => 66
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S500000x64, .f32⟩
  | .hbm, ⟨7, _⟩ => ⟨S1x64, .f32⟩
  | .hbm, ⟨8, _⟩ => ⟨S500000x64, .f32⟩
  | .hbm, ⟨9, _⟩ => ⟨S500000x64, .f32⟩
  | .hbm, ⟨10, _⟩ => ⟨S_, .f32⟩
  | .hbm, ⟨11, _⟩ => ⟨S_, .f32⟩
  | .hbm, ⟨12, _⟩ => ⟨S500000x64, .f32⟩
  | .hbm, ⟨13, _⟩ => ⟨S500000x64, .i1⟩
  | .hbm, ⟨14, _⟩ => ⟨S_, .f32⟩
  | .hbm, ⟨15, _⟩ => ⟨S500000x64, .f32⟩
  | .hbm, ⟨16, _⟩ => ⟨S500000x64, .f32⟩
  | .hbm, ⟨17, _⟩ => ⟨S500000x64, .f32⟩
  | .hbm, ⟨18, _⟩ => ⟨S500000x1, .f32⟩
  | .hbm, ⟨19, _⟩ => ⟨S1x1, .f32⟩
  | .hbm, ⟨20, _⟩ => ⟨S500000x1, .f32⟩
  | .hbm, ⟨21, _⟩ => ⟨S500000x1, .f32⟩
  | .hbm, ⟨22, _⟩ => ⟨S500000x64, .f32⟩
  | .hbm, ⟨23, _⟩ => ⟨S1x64, .f32⟩
  | .hbm, ⟨24, _⟩ => ⟨S500000x64, .f32⟩
  | .hbm, ⟨25, _⟩ => ⟨S500000x64, .f32⟩
  | .hbm, ⟨26, _⟩ => ⟨S_, .f32⟩
  | .hbm, ⟨27, _⟩ => ⟨S_, .f32⟩
  | .hbm, ⟨28, _⟩ => ⟨S500000x64, .f32⟩
  | .hbm, ⟨29, _⟩ => ⟨S500000x64, .i1⟩
  | .hbm, ⟨30, _⟩ => ⟨S_, .f32⟩
  | .hbm, ⟨31, _⟩ => ⟨S500000x64, .f32⟩
  | .hbm, ⟨32, _⟩ => ⟨S500000x64, .f32⟩
  | .hbm, ⟨33, _⟩ => ⟨S500000x64, .f32⟩
  | .hbm, ⟨34, _⟩ => ⟨S500000x1, .f32⟩
  | .hbm, ⟨35, _⟩ => ⟨S1x1, .f32⟩
  | .hbm, ⟨36, _⟩ => ⟨S500000x1, .f32⟩
  | .hbm, ⟨37, _⟩ => ⟨S500000x1, .f32⟩
  | .hbm, ⟨38, _⟩ => ⟨S500000x1x1, .f32⟩
  | .hbm, ⟨39, _⟩ => ⟨S500000x1x1, .f32⟩
  | .hbm, ⟨40, _⟩ => ⟨S500000x2x1, .f32⟩
  | .hbm, ⟨41, _⟩ => ⟨S_, .f32⟩
  | .hbm, ⟨42, _⟩ => ⟨S500000x1, .f32⟩
  | .hbm, ⟨43, _⟩ => ⟨S_, .f32⟩
  | .hbm, ⟨44, _⟩ => ⟨S500000x1, .f32⟩
  | .hbm, ⟨45, _⟩ => ⟨S500000x1, .f32⟩
  | .hbm, ⟨46, _⟩ => ⟨S500000x1x1, .f32⟩
  | .hbm, ⟨47, _⟩ => ⟨S500000x2x1, .f32⟩
  | .hbm, ⟨48, _⟩ => ⟨S500000x2x1, .f32⟩
  | .hbm, ⟨49, _⟩ => ⟨S500000x2x1, .f32⟩
  | .hbm, ⟨50, _⟩ => ⟨S_, .f32⟩
  | .hbm, ⟨51, _⟩ => ⟨S500000x1, .f32⟩
  | .hbm, ⟨52, _⟩ => ⟨S500000x1x1, .f32⟩
  | .hbm, ⟨53, _⟩ => ⟨S500000x2x1, .f32⟩
  | .hbm, ⟨54, _⟩ => ⟨S500000x2x1, .f32⟩
  | .hbm, ⟨55, _⟩ => ⟨S500000x1x1, .f32⟩
  | .hbm, ⟨56, _⟩ => ⟨S500000x1, .f32⟩
  | .hbm, ⟨57, _⟩ => ⟨S500000x128, .f32⟩
  | .hbm, ⟨58, _⟩ => ⟨S500000x128, .f32⟩
  | .hbm, ⟨59, _⟩ => ⟨S500000x1x1, .f32⟩
  | .hbm, ⟨60, _⟩ => ⟨S500000x1, .f32⟩
  | .hbm, ⟨61, _⟩ => ⟨S500000x128, .f32⟩
  | .hbm, ⟨62, _⟩ => ⟨S500000x128, .f32⟩
  | .hbm, ⟨63, _⟩ => ⟨S500000x256, .f32⟩
  | .hbm, ⟨64, _⟩ => ⟨S500000x256, .f32⟩
  | .hbm, ⟨65, _⟩ => ⟨S500000x1x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S500000x1_S500000x1x1_0_2 : S500000x1.BroadcastsInDim S500000x1x1 (![0, 2] : Fin 2 → Fin S500000x1x1.rank)
  concatenates_S500000x1x1_S500000x1x1_S500000x2x1_d1 : Shape.Concatenates [S500000x1x1, S500000x1x1] S500000x2x1 1
  reducesTo_S500000x2x1_S500000x1_d1 : S500000x2x1.ReducesTo [1] S500000x1
  h_S_ : 0 < S_.numel
  bcast_S_S500000x1 : S_.BroadcastsInDim S500000x1 (![] : Fin 0 → Fin S500000x1.rank)
  bcast_S500000x1x1_S500000x2x1_0_1_2 : S500000x1x1.BroadcastsInDim S500000x2x1 (![0, 1, 2] : Fin 3 → Fin S500000x2x1.rank)
  slices_S500000x2x1_S500000x1x1_0_0_0 : S500000x2x1.Slices ![0, 0, 0] S500000x1x1
  shapeCasts_S500000x1x1_S500000x1 : S500000x1x1.ShapeCasts S500000x1
  bcast_S500000x1_S500000x128_0_1 : S500000x1.BroadcastsInDim S500000x128 (![0, 1] : Fin 2 → Fin S500000x128.rank)
  slices_S500000x2x1_S500000x1x1_0_1_0 : S500000x2x1.Slices ![0, 1, 0] S500000x1x1
  concatenates_S500000x128_S500000x128_S500000x256_d1 : Shape.Concatenates [S500000x128, S500000x128] S500000x256 1
  bcast_S500000x256_S500000x1x256_0_2 : S500000x256.BroadcastsInDim S500000x1x256 (![0, 2] : Fin 2 → Fin S500000x1x256.rank)
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Spec.lean ====
/-
  The mathematics both programs compute, stated once, row by row.

  For a row `x : Fin 128 → EReal`, weights `W1 : [128, 64]`, a bias `b1 : Fin 64 → EReal`, a column `w2 : Fin 64 → EReal`
  and a scalar `b2`, the row's score is
      score x = (∑ j, leaky ((∑ k, x k · W1[k, j]) + b1 j) · w2 j) + b2,
  where `leaky h` is `h` when `0 < h` and `slope · h` otherwise. Two rows `x1`, `x2` with scores `s1`, `s2` get the
  weights of a two-way softmax. One side writes them as logistic functions of the difference,
      gate0 = 1 / (1 + e^(-(s1 - s2))),   gate1 = 1 / (1 + e^(-(0 - (s1 - s2)))),
  the other as the normalised exponentials
      soft_i = e^(s_i - max s1 s2) / (e^(s1 - max s1 s2) + e^(s2 - max s1 s2)).
  The outputs are `tanh (weight0 · x1[k])` in columns 0 … 127, `tanh (weight1 · x2[k])` in columns 128 … 255, and the two
  weights themselves.
-/
import Idealize.ShloMosaic.PureOps.Ideal
import Idealize.ShloMosaic.Lib.ValueIdx

noncomputable section

namespace Cert.Spec

open Idealize.ShloMosaic Idealize.ShloMosaic.ValueIdx
open scoped BigOperators

/-- The array shapes of the statement. -/
abbrev SX : Shape := ⟨2, ![500000, 128]⟩
abbrev SW1 : Shape := ⟨2, ![128, 64]⟩
abbrev SB1 : Shape := ⟨1, ![64]⟩
abbrev SW2 : Shape := ⟨2, ![64, 1]⟩
abbrev SB2 : Shape := ⟨1, ![1]⟩
abbrev SZ : Shape := ⟨3, ![500000, 1, 256]⟩
abbrev SB : Shape := ⟨3, ![500000, 2, 1]⟩

/-- An extended real that is a real number (neither infinity). -/
def IsReal (x : EReal) : Prop := ∃ r : ℝ, x = (r : EReal)

/-- The rectifier's slope on the negative side: the single-precision number nearest 1/100, read as the exact real it is. -/
def slope : EReal := Ideal.ofBits .f32 0x3C23D70A#32

/-- The leaky rectifier on the extended reals: the identity on the positive side, multiplication by `slope` elsewhere. -/
def leaky (h : EReal) : EReal := if 0 < h then h else slope * h

/-- Entry `j` of the hidden layer of one row, before the rectifier. -/
def rowHidden (xr : Fin 128 → EReal) (W1 : SW1.Idx → EReal) (b1 : Fin 64 → EReal) (j : Fin 64) : EReal :=
  (∑ k : Fin 128, xr k * W1 (ix2 k j)) + b1 j

/-- The score of one row. -/
def rowScore (xr : Fin 128 → EReal) (W1 : SW1.Idx → EReal) (b1 : Fin 64 → EReal) (w2 : Fin 64 → EReal) (b2 : EReal) : EReal :=
  (∑ j : Fin 64, leaky (rowHidden xr W1 b1 j) * w2 j) + b2

/-- The weight of the first row, as a logistic function of the scores' difference. -/
def gate0 (s1 s2 : EReal) : EReal := Ideal.logistic (s1 - s2)
/-- The weight of the second row, as a logistic function of the negated difference. -/
def gate1 (s1 s2 : EReal) : EReal := Ideal.logistic (0 - (s1 - s2))

/-- The weight of the first row, as a normalised exponential. -/
def soft0 (s1 s2 : EReal) : EReal :=
  Ideal.div (Ideal.exp (s1 - max s1 s2)) (Ideal.exp (s1 - max s1 s2) + Ideal.exp (s2 - max s1 s2))
/-- The weight of the second row, as a normalised exponential. -/
def soft1 (s1 s2 : EReal) : EReal :=
  Ideal.div (Ideal.exp (s2 - max s1 s2)) (Ideal.exp (s1 - max s1 s2) + Ideal.exp (s2 - max s1 s2))

/-- One output row of 256 columns: the first row weighted in the low half, the second in the high half, under `tanh`. -/
def outZ (β0 β1 : EReal) (x1r x2r : Fin 128 → EReal) (q : Fin 256) : EReal :=
  if h : q.val < 128 then Ideal.tanh (β0 * x1r ⟨q.val, h⟩)
  else Ideal.tanh (β1 * x2r ⟨q.val - 128, by omega⟩)

/-- The pair of weights of one row. -/
def outB (β0 β1 : EReal) (e : Fin 2) : EReal := if e.val = 0 then β0 else β1

section Arrays

variable (a0 a1 : SX.Idx → EReal) (a2 : SW1.Idx → EReal) (a3 : SB1.Idx → EReal) (a4 : SW2.Idx → EReal) (a5 : SB2.Idx → EReal)

/-- Row `r` of an array of rows. -/
def rowOf (x : SX.Idx → EReal) (r : Fin 500000) : Fin 128 → EReal := fun k => x (ix2 r k)

/-- The score of row `r` of `x` under the statement's parameter arrays. -/
def score (x : SX.Idx → EReal) (r : Fin 500000) : EReal :=
  rowScore (rowOf x r) a2 (fun j => a3 (ix1 j)) (fun j => a4 (ix2 j 0)) (a5 (ix1 0))

/-- The first result with logistic weights. -/
def gateZ : SZ.Idx → EReal := fun i =>
  outZ (gate0 (score a2 a3 a4 a5 a0 (i 0)) (score a2 a3 a4 a5 a1 (i 0))) (gate1 (score a2 a3 a4 a5 a0 (i 0)) (score a2 a3 a4 a5 a1 (i 0)))
    (rowOf a0 (i 0)) (rowOf a1 (i 0)) (i 2)
/-- The second result with logistic weights. -/
def gateB : SB.Idx → EReal := fun i =>
  outB (gate0 (score a2 a3 a4 a5 a0 (i 0)) (score a2 a3 a4 a5 a1 (i 0))) (gate1 (score a2 a3 a4 a5 a0 (i 0)) (score a2 a3 a4 a5 a1 (i 0))) (i 1)

/-- The first result with normalised-exponential weights. -/
def softZ : SZ.Idx → EReal := fun i =>
  outZ (soft0 (score a2 a3 a4 a5 a0 (i 0)) (score a2 a3 a4 a5 a1 (i 0))) (soft1 (score a2 a3 a4 a5 a0 (i 0)) (score a2 a3 a4 a5 a1 (i 0)))
    (rowOf a0 (i 0)) (rowOf a1 (i 0)) (i 2)
/-- The second result with normalised-exponential weights. -/
def softB : SB.Idx → EReal := fun i =>
  outB (soft0 (score a2 a3 a4 a5 a0 (i 0)) (score a2 a3 a4 a5 a1 (i 0))) (soft1 (score a2 a3 a4 a5 a0 (i 0)) (score a2 a3 a4 a5 a1 (i 0))) (i 1)

end Arrays

end Cert.Spec

end
-- ==== Proof.KScore.lean ====
/-
  The difference of the two rows' scores, as one grid point computes it from its input blocks.
-/
import proofs.«132624_j17901423690230_1_alg».proof.Proof.Gen.KernelIdeal.Frame
import proofs.«132624_j17901423690230_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen
open scoped BigOperators

/-- The score of row `p` of a block of rows, under the parameter blocks. -/
abbrev blkScore (x : Vec Ideal S2000x128 .f32) (x2 : Vec Ideal S128x64 .f32) (x3 : Vec Ideal S1x64 .f32) (x4 : Vec Ideal S64x1 .f32)
    (x5 : Vec Ideal S1x1 .f32) (p : Fin 2000) : EReal :=
  Cert.Spec.rowScore (fun k => x (ix2 p k)) x2 (fun j => x3 (ix2 0 j)) (fun j => x4 (ix2 j 0)) (x5 (ix2 0 0))

/-! ## A plain matrix product into the zero accumulator, read at an index -/

/-- The product of an `m × k` by a `k × n` matrix accumulated into zero, read at `(a, b)`, is the sum over the contracted
    coordinate of the products of the entries. -/
theorem matmul_plain_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (F := Ideal) (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  show FloatOps.matmul _ none A B (constant (F := Ideal) ⟨2, ![m, n]⟩ .f32 0x00000000#32) (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The rectifier at an element -/

/-- The comparison with zero, the selection and the scaled branch, as one grid point's payload writes them, are the
    leaky rectifier. -/
theorem leaky_eq (h : EReal) :
    Scalar.select (Ideal.cmp .ogt h (Ideal.ofBits .f32 0x00000000#32)) h (Ideal.ofBits .f32 0x3C23D70A#32 * h)
      = Cert.Spec.leaky h := by
  rw [Ideal.ofBits_zero_f32]
  unfold Cert.Spec.leaky Cert.Spec.slope
  by_cases hh : (0 : EReal) < h
  · have e : Ideal.cmp .ogt h 0 = 1#1 := by
      show BitVec.ofBool (decide ((0 : EReal) < h)) = 1#1
      rw [decide_eq_true hh]; rfl
    rw [if_pos hh, e, select_one]
  · have e : Ideal.cmp .ogt h 0 = 0#1 := by
      show BitVec.ofBool (decide ((0 : EReal) < h)) = 0#1
      rw [decide_eq_false hh]; rfl
    rw [if_neg hh, e, select_zero]

/-! ## The hidden layer of a block of rows -/

/-- The hidden layer before the rectifier, for a block of rows: the product with the first weights plus the bias row. -/
abbrev hiddenVec (x : Vec Ideal S2000x128 .f32) (v2 : Vec Ideal S128x64 .f32) (v3 : Vec Ideal S1x64 .f32) : FVec Ideal S2000x64 .f32 :=
  addf (matmul (F := Ideal) dot_S2000x128_S128x64_S2000x64_1_0_0_1_n_n none (truncf .bf16 x bitsLt_bf16_f32)
      (truncf .bf16 v2 bitsLt_bf16_f32) (constant (F := Ideal) S2000x64 .f32 0x00000000#32))
    (broadcastTo S2000x64 (shapeCast S1x64 v3 shapeCasts_S1x64_S1x64) broadcasts_S1x64_S2000x64)

theorem hidden_apply (x : Vec Ideal S2000x128 .f32) (v2 : Vec Ideal S128x64 .f32) (v3 : Vec Ideal S1x64 .f32)
    (p : Fin 2000) (j : Fin 64) :
    hiddenVec x v2 v3 (ix2 p j) = Cert.Spec.rowHidden (fun k => x (ix2 p k)) v2 (fun j => v3 (ix2 0 j)) j := by
  unfold hiddenVec Cert.Spec.rowHidden
  rw [addf_apply]
  refine congrArg₂ (· + ·) ?_ ?_
  · exact matmul_plain_zero_apply (m := 2000) (k := 128) (n := 64) dot_S2000x128_S128x64_S2000x64_1_0_0_1_n_n_wf
      (truncf .bf16 x bitsLt_bf16_f32) (truncf .bf16 v2 bitsLt_bf16_f32) p j
  · rw [shapeCast_self]
    exact broadcastTo_1b_ab_apply (a := 2000) (b := 64) v3 broadcasts_S1x64_S2000x64 p j

/-- The hidden layer after the rectifier, for a block of rows. -/
abbrev actVec (x : Vec Ideal S2000x128 .f32) (v2 : Vec Ideal S128x64 .f32) (v3 : Vec Ideal S1x64 .f32) : FVec Ideal S2000x64 .f32 :=
  select (cmpf .ogt (hiddenVec x v2 v3) (broadcast S2000x64 (Scalar.ofBits (F := Ideal) .f32 0x00000000#32)))
    (hiddenVec x v2 v3)
    (mulf (broadcast S2000x64 (Scalar.ofBits (F := Ideal) .f32 0x3C23D70A#32)) (hiddenVec x v2 v3))

theorem act_apply (x : Vec Ideal S2000x128 .f32) (v2 : Vec Ideal S128x64 .f32) (v3 : Vec Ideal S1x64 .f32)
    (p : Fin 2000) (j : Fin 64) :
    actVec x v2 v3 (ix2 p j)
      = Cert.Spec.leaky (Cert.Spec.rowHidden (fun k => x (ix2 p k)) v2 (fun j => v3 (ix2 0 j)) j) := by
  unfold actVec
  rw [select_apply, cmpf_apply, mulf_apply, broadcast_apply, broadcast_apply, hidden_apply]
  exact leaky_eq _

/-! ## The score of a block of rows -/

/-- The scores of a block of rows: the product of the rectified hidden layer with the second weights plus the bias. -/
abbrev scoreVec (x : Vec Ideal S2000x128 .f32) (v2 : Vec Ideal S128x64 .f32) (v3 : Vec Ideal S1x64 .f32)
    (v5 : Vec Ideal S64x1 .f32) (v6 : Vec Ideal S1x1 .f32) : FVec Ideal S2000x1 .f32 :=
  addf (matmul (F := Ideal) dot_S2000x64_S64x1_S2000x1_1_0_0_1_n_n none (truncf .bf16 (actVec x v2 v3) bitsLt_bf16_f32)
      (truncf .bf16 v5 bitsLt_bf16_f32) (constant (F := Ideal) S2000x1 .f32 0x00000000#32))
    (broadcastTo S2000x1 (shapeCast S1x1 v6 shapeCasts_S1x1_S1x1) broadcasts_S1x1_S2000x1)

theorem score_apply (x : Vec Ideal S2000x128 .f32) (v2 : Vec Ideal S128x64 .f32) (v3 : Vec Ideal S1x64 .f32)
    (v5 : Vec Ideal S64x1 .f32) (v6 : Vec Ideal S1x1 .f32) (p : Fin 2000) :
    scoreVec x v2 v3 v5 v6 (ix2 p 0) = blkScore x v2 v3 v5 v6 p := by
  unfold scoreVec blkScore Cert.Spec.rowScore
  rw [addf_apply]
  refine congrArg₂ (· + ·) ?_ ?_
  · refine (matmul_plain_zero_apply (m := 2000) (k := 64) (n := 1) dot_S2000x64_S64x1_S2000x1_1_0_0_1_n_n_wf
      (truncf .bf16 (actVec x v2 v3) bitsLt_bf16_f32) (truncf .bf16 v5 bitsLt_bf16_f32) p 0).trans ?_
    refine Finset.sum_congr rfl fun j _ => ?_
    rw [truncf_apply, truncf_apply, act_apply]
  · rw [shapeCast_self]
    exact broadcastTo_1b_ab_apply (a := 2000) (b := 1) v6 broadcasts_S1x1_S2000x1 p 0

theorem pay4_apply (v0 v1 : Vec Ideal S2000x128 .f32) (v2 : Vec Ideal S128x64 .f32) (v3 : Vec Ideal S1x64 .f32)
    (v5 : Vec Ideal S64x1 .f32) (v6 : Vec Ideal S1x1 .f32) (p : Fin 2000) :
    k0_pay4 (F := Ideal) v0 v1 v2 v3 v5 v6 (ix2 p 0) = blkScore v0 v2 v3 v5 v6 p - blkScore v1 v2 v3 v5 v6 p := by
  unfold k0_pay4
  show subf (scoreVec v0 v2 v3 v5 v6) (scoreVec v1 v2 v3 v5 v6) (ix2 p 0) = _
  rw [subf_apply, score_apply, score_apply]

end Cert.KernelIdeal.KValue

end
-- ==== Proof.KPayload.lean ====
/-
  What one grid point leaves in the two output blocks, entry by entry, in terms of the rows of its input blocks.
-/
import proofs.«132624_j17901423690230_1_alg».proof.Proof.KScore
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen

namespace Payload

/-- The zero offsets of a whole-block rectangle of rank two, as the constant function. -/
theorem hz2 : (![0, 0] : Fin 2 → Nat) = fun _ => 0 := funext fun a => by fin_cases a <;> rfl

/-- A column of 2000 entries broadcast over 128 lanes reads, at row `p` and any lane, the column's entry of row `p`. -/
theorem bcast_col_apply (v : FVec Ideal S2000x1 .f32) (p : Fin 2000) (k : Fin 128) :
    broadcastTo S2000x128 v broadcasts_S2000x1_S2000x128 (ix2 p k) = v (ix2 p (0 : Fin 1)) := by
  refine broadcastTo_apply v broadcasts_S2000x1_S2000x128 (ix2 p k) (ix2 p (0 : Fin 1)) fun ax => ?_
  match ax with
  | ⟨0, _⟩ =>
    show p.val = if (2000 : ℕ) = 1 then 0 else p.val
    rw [if_neg (by decide)]
  | ⟨1, _⟩ =>
    show (0 : ℕ) = if (1 : ℕ) = 1 then 0 else k.val
    rw [if_pos rfl]

/-- The second weight's column at row `p`: the logistic function of the constant less the difference of scores. -/
theorem pay1_apply (v36 : FVec Ideal S2000x1 .f32) (cst : Ideal .f32) (p : Fin 2000) :
    k0_pay1 (F := Ideal) v36 cst (ix2 p (0 : Fin 1)) = Ideal.logistic (cst - v36 (ix2 p (0 : Fin 1))) := by
  unfold k0_pay1
  rfl

/-- The first weight's column at row `p`: the logistic function of the difference of scores. -/
theorem pay5_apply (v0 v1 : Vec Ideal S2000x128 .f32) (v2 : Vec Ideal S128x64 .f32) (v3 : Vec Ideal S1x64 .f32)
    (v5 : Vec Ideal S64x1 .f32) (v6 : Vec Ideal S1x1 .f32) (p : Fin 2000) :
    k0_pay5 (F := Ideal) v0 v1 v2 v3 v5 v6 (ix2 p (0 : Fin 1))
      = Ideal.logistic (k0_pay4 (F := Ideal) v0 v1 v2 v3 v5 v6 (ix2 p (0 : Fin 1))) := by
  unfold k0_pay5
  rfl

/-- The 256-column payload at `(p, q)`: the low half is the first block's row under the first weight, the high half the
    second block's row under the second weight, each under `tanh`. -/
theorem pay2_apply (v0 v1 : Vec Ideal S2000x128 .f32) (v36 v37 : FVec Ideal S2000x1 .f32) (cst : Ideal .f32)
    (p : Fin 2000) (q : Fin 256) :
    k0_pay2 (F := Ideal) v0 v1 v36 v37 cst (ix2 p q)
      = if h : q.val < 128 then Ideal.tanh (v37 (ix2 p (0 : Fin 1)) * v0 (ix2 p (⟨q.val, h⟩ : Fin 128)))
        else Ideal.tanh (k0_pay1 (F := Ideal) v36 cst (ix2 p (0 : Fin 1)) * v1 (ix2 p (⟨q.val - 128, by omega⟩ : Fin 128))) := by
  unfold k0_pay2
  split
  · next h =>
    refine congrArg Ideal.tanh ?_
    refine (concatenate_pair_apply_left (1 : Fin S2000x256.rank) _ _ concatenates_S2000x128_S2000x128_S2000x256_d1 (ix2 p q) rfl
      (ix2 p (⟨q.val, h⟩ : Fin 128)) (fun b => by
        match b with
        | ⟨0, _⟩ => rfl
        | ⟨1, _⟩ => rfl)).trans ?_
    rw [mulf_apply, bcast_col_apply]
  · next h =>
    refine congrArg Ideal.tanh ?_
    refine (concatenate_pair_apply_right (1 : Fin S2000x256.rank) _ _ concatenates_S2000x128_S2000x128_S2000x256_d1 (ix2 p q) rfl rfl
      (ix2 p (⟨q.val - 128, by omega⟩ : Fin 128)) (fun b hb => by
        match b with
        | ⟨0, _⟩ => rfl
        | ⟨1, _⟩ => exact absurd rfl hb) (by
        show q.val - 128 + 128 = q.val
        omega)).trans ?_
    rw [mulf_apply, bcast_col_apply]

/-- The two-column payload at `(p, e)`: the first weight in column 0, the second in column 1. -/
theorem pay3_apply (v36 v37 : FVec Ideal S2000x1 .f32) (cst : Ideal .f32) (p : Fin 2000) (e : Fin 2) :
    k0_pay3 (F := Ideal) v36 v37 cst (ix2 p e)
      = if e.val = 0 then v37 (ix2 p (0 : Fin 1)) else k0_pay1 (F := Ideal) v36 cst (ix2 p (0 : Fin 1)) := by
  unfold k0_pay3
  match e with
  | ⟨0, _⟩ =>
    refine (concatenate_pair_apply_left (1 : Fin S2000x2.rank) _ _ concatenates_S2000x1_S2000x1_S2000x2_d1 _ rfl
      (ix2 p (0 : Fin 1)) (fun b => by
        match b with
        | ⟨0, _⟩ => rfl
        | ⟨1, _⟩ => rfl)).trans (if_pos ?_).symm
    rfl
  | ⟨1, _⟩ =>
    refine (concatenate_pair_apply_right (1 : Fin S2000x2.rank) _ _ concatenates_S2000x1_S2000x1_S2000x2_d1 _ rfl rfl
      (ix2 p (0 : Fin 1)) (fun b hb => by
        match b with
        | ⟨0, _⟩ => rfl
        | ⟨1, _⟩ => exact absurd rfl hb) rfl).trans (if_neg ?_).symm
    exact Nat.succ_ne_zero 0

/-- The first weight's column at row `p` is the logistic weight of the two rows' scores. -/
theorem gate0_eq (x0 x1 : Vec Ideal S2000x128 .f32) (x2 : Vec Ideal S128x64 .f32) (x3 : Vec Ideal S1x64 .f32)
    (x4 : Vec Ideal S64x1 .f32) (x5 : Vec Ideal S1x1 .f32) (p : Fin 2000) :
    k0_pay5 (F := Ideal) x0 x1 x2 x3 x4 x5 (ix2 p (0 : Fin 1))
      = Cert.Spec.gate0 (blkScore x0 x2 x3 x4 x5 p) (blkScore x1 x2 x3 x4 x5 p) := by
  rw [pay5_apply, pay4_apply]
  rfl

/-- The second weight's column at row `p` is the logistic weight of the negated difference of the two rows' scores. -/
theorem gate1_eq (x0 x1 : Vec Ideal S2000x128 .f32) (x2 : Vec Ideal S128x64 .f32) (x3 : Vec Ideal S1x64 .f32)
    (x4 : Vec Ideal S64x1 .f32) (x5 : Vec Ideal S1x1 .f32) (p : Fin 2000) :
    k0_pay1 (F := Ideal) (k0_pay4 (F := Ideal) x0 x1 x2 x3 x4 x5) (FloatOps.ofBits .f32 0x00000000#32) (ix2 p (0 : Fin 1))
      = Cert.Spec.gate1 (blkScore x0 x2 x3 x4 x5 p) (blkScore x1 x2 x3 x4 x5 p) := by
  rw [pay1_apply, pay4_apply]
  show Ideal.logistic (Ideal.ofBits .f32 0x00000000#32 - _) = _
  rw [Ideal.ofBits_zero_f32]
  rfl

end Payload

open Payload

theorem out6_apply (x0 x1 : Vec Ideal S2000x128 .f32) (x2 : Vec Ideal S128x64 .f32) (x3 : Vec Ideal S1x64 .f32)
    (x4 : Vec Ideal S64x1 .f32) (x5 : Vec Ideal S1x1 .f32) (p : Fin 2000) (q : Fin 256) :
    out0_6 (F := Ideal) x0 x1 x2 x3 x4 x5 (ix2 p q)
      = Cert.Spec.outZ (Cert.Spec.gate0 (blkScore x0 x2 x3 x4 x5 p) (blkScore x1 x2 x3 x4 x5 p))
          (Cert.Spec.gate1 (blkScore x0 x2 x3 x4 x5 p) (blkScore x1 x2 x3 x4 x5 p))
          (fun k => x0 (ix2 p k)) (fun k => x1 (ix2 p k)) q := by
  unfold out0_6
  rw [View.canon_unit_zero hz2]
  simp only [View.ld_unit_zero (S := S2000x128) hz2, View.ld_unit_zero (S := S128x64) hz2, View.ld_unit_zero (S := S1x64) hz2,
    View.ld_unit_zero (S := S64x1) hz2, View.ld_unit_zero (S := S1x1) hz2]
  rw [pay2_apply]
  rw [gate0_eq x0 x1 x2 x3 x4 x5 p, gate1_eq x0 x1 x2 x3 x4 x5 p]
  rfl

theorem out7_apply (x0 x1 : Vec Ideal S2000x128 .f32) (x2 : Vec Ideal S128x64 .f32) (x3 : Vec Ideal S1x64 .f32)
    (x4 : Vec Ideal S64x1 .f32) (x5 : Vec Ideal S1x1 .f32) (p : Fin 2000) (e : Fin 2) :
    out0_7 (F := Ideal) x0 x1 x2 x3 x4 x5 (ix2 p e)
      = Cert.Spec.outB (Cert.Spec.gate0 (blkScore x0 x2 x3 x4 x5 p) (blkScore x1 x2 x3 x4 x5 p))
          (Cert.Spec.gate1 (blkScore x0 x2 x3 x4 x5 p) (blkScore x1 x2 x3 x4 x5 p)) e := by
  unfold out0_7
  rw [View.canon_unit_zero hz2]
  simp only [View.ld_unit_zero (S := S2000x128) hz2, View.ld_unit_zero (S := S128x64) hz2, View.ld_unit_zero (S := S1x64) hz2,
    View.ld_unit_zero (S := S64x1) hz2, View.ld_unit_zero (S := S1x1) hz2]
  rw [pay3_apply]
  rw [gate0_eq x0 x1 x2 x3 x4 x5 p, gate1_eq x0 x1 x2 x3 x4 x5 p]
  rfl

end Cert.KernelIdeal.KValue

end
-- ==== Proof.KValue.lean ====
/-
  The kernel program run: every fair execution ends with its two results at the logistic form of the specification.

  Grid point `t` (of 250) stages rows `2000 t … 2000 t + 1999` of the two input arrays and the whole of the four parameter
  arrays, and writes back rows `2000 t … 2000 t + 1999` of the two output arrays. Row `p` of what it writes depends on row
  `2000 t + p` of the inputs only, so the written blocks are the blocks of one whole-array function; the 250 blocks cover
  every row, so after the run each output array is that function. The two reshapes after the region insert a unit axis.
-/
import proofs.«132624_j17901423690230_1_alg».proof.Proof.KPayload
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row windows sit at block `t` on the row axis and block 0 on the column axis,
    the parameter windows at block 0 on both. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The six argument arrays of device `c`, at their literal types. -/
abbrev arr0 (c : Dev nD) : Vec Ideal S500000x128 .f32 := m ((c.tc : Thread nD τ).loc main_arg0)
abbrev arr1 (c : Dev nD) : Vec Ideal S500000x128 .f32 := m ((c.tc : Thread nD τ).loc main_arg1)
abbrev arr2 (c : Dev nD) : Vec Ideal S128x64 .f32 := m ((c.tc : Thread nD τ).loc main_arg2)
abbrev arr3 (c : Dev nD) : Vec Ideal S64 .f32 := m ((c.tc : Thread nD τ).loc main_arg3)
abbrev arr4 (c : Dev nD) : Vec Ideal S64x1 .f32 := m ((c.tc : Thread nD τ).loc main_arg4)
abbrev arr5 (c : Dev nD) : Vec Ideal S1 .f32 := m ((c.tc : Thread nD τ).loc main_arg5)

/-- The input blocks of grid point `t`, at their literal types. -/
abbrev xb0 (c : Dev nD) (t : Fin cfg0.N) : Vec Ideal S2000x128 .f32 := iblk m c 0 t
abbrev xb1 (c : Dev nD) (t : Fin cfg0.N) : Vec Ideal S2000x128 .f32 := iblk m c 1 t
abbrev xb2 (c : Dev nD) (t : Fin cfg0.N) : Vec Ideal S128x64 .f32 := iblk m c 2 t
abbrev xb3 (c : Dev nD) (t : Fin cfg0.N) : Vec Ideal S1x64 .f32 := iblk m c 3 t
abbrev xb4 (c : Dev nD) (t : Fin cfg0.N) : Vec Ideal S64x1 .f32 := iblk m c 4 t
abbrev xb5 (c : Dev nD) (t : Fin cfg0.N) : Vec Ideal S1x1 .f32 := iblk m c 5 t

/-- Row `p` of block `t` is row `2000 t + p` of the array. -/
def rowAt (t : Fin cfg0.N) (p : Fin 2000) : Fin 500000 :=
  ⟨2000 * t.val + p.val, by have h1 : t.val < 250 := t.isLt; have h2 := p.isLt; omega⟩

theorem blk0 (c : Dev nD) (t : Fin cfg0.N) (p : Fin 2000) (k : Fin 128) :
    xb0 m c t (ix2 p k) = arr0 m c (ix2 (rowAt t p) k) := by
  obtain ⟨e0, e1, -⟩ := idx_facts t
  show V m c main_arg0 (((cfg0.win 0).blk t).view.emb (ix2 p k)) = _
  rw [V_main_arg0]
  refine congrArg (arr0 m c) ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

theorem blk1 (c : Dev nD) (t : Fin cfg0.N) (p : Fin 2000) (k : Fin 128) :
    xb1 m c t (ix2 p k) = arr1 m c (ix2 (rowAt t p) k) := by
  obtain ⟨-, -, e0, e1, -⟩ := idx_facts t
  show V m c main_arg1 (((cfg0.win 1).blk t).view.emb (ix2 p k)) = _
  rw [V_main_arg1]
  refine congrArg (arr1 m c) ?_
  funext a; apply Fin.ext
  match a with
  | ⟨0, _⟩ => show win0_1.index t (0 : Fin 2) * 2000 + 1 * p.val = 2000 * t.val + p.val; omega
  | ⟨1, _⟩ => show win0_1.index t (1 : Fin 2) * 128 + 1 * k.val = k.val; omega

/-- The first layer's weights are staged whole. -/
theorem blk2 (c : Dev nD) (t : Fin cfg0.N) : xb2 m c t = arr2 m c := by
  obtain ⟨-, -, -, -, e0, e1, -⟩ := idx_facts t
  funext y
  show V m c main_arg2 (((cfg0.win 2).blk t).view.emb y) = _
  rw [V_main_arg2]
  refine congrArg (arr2 m c) ?_
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The second layer's weights are staged whole. -/
theorem blk4 (c : Dev nD) (t : Fin cfg0.N) : xb4 m c t = arr4 m c := by
  obtain ⟨-, -, -, -, -, -, -, -, e0, e1, -⟩ := idx_facts t
  funext y
  show V m c main_arg4 (((cfg0.win 4).blk t).view.emb y) = _
  rw [V_main_arg4]
  refine congrArg (arr4 m c) ?_
  funext a; apply Fin.ext
  match a with
  | ⟨0, _⟩ => show win0_4.index t (0 : Fin 2) * 64 + 1 * (y 0).val = (y 0).val; omega
  | ⟨1, _⟩ => show win0_4.index t (1 : Fin 2) * 1 + 1 * (y 1).val = (y 1).val; omega

/-- The first bias as the region finds it: the argument vector laid out as one row. -/
theorem V_v0 (c : Dev nD) : (V m c main_v0 : S1x64.Idx → EReal) = shapeCast S1x64 (arr3 m c) shapeCasts_S64_S1x64 := by
  show StableHlo.after hostOps0 (fun b => m (c, b)) (Proc.devRef .tc main_v0) = _
  after_results
  rfl

/-- The second bias as the region finds it: the argument's one entry as a one-by-one array. -/
theorem V_v1 (c : Dev nD) : (V m c main_v1 : S1x1.Idx → EReal) = shapeCast S1x1 (arr5 m c) shapeCasts_S1_S1x1 := by
  show StableHlo.after hostOps0 (fun b => m (c, b)) (Proc.devRef .tc main_v1) = _
  after_results
  rfl

theorem blk3 (c : Dev nD) (t : Fin cfg0.N) (j : Fin 64) : xb3 m c t (ix2 0 j) = arr3 m c (ix1 j) := by
  obtain ⟨-, -, -, -, -, -, e0, e1, -⟩ := idx_facts t
  show V m c main_v0 (((cfg0.win 3).blk t).view.emb (ix2 0 j)) = _
  have he : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 64 + 1 * j.val = j.val; omega
  rw [he, V_v0]
  refine shapeCast_apply _ _ _ (ix1 j) ?_
  rw [Shape.rowMajor_val_one, Shape.rowMajor_val_two]
  show j.val = 0 * 64 + j.val
  omega

theorem blk5 (c : Dev nD) (t : Fin cfg0.N) : xb5 m c t (ix2 0 0) = arr5 m c (ix1 0) := by
  obtain ⟨-, -, -, -, -, -, -, -, -, -, e0, e1, -⟩ := idx_facts t
  show V m c main_v1 (((cfg0.win 5).blk t).view.emb (ix2 0 0)) = _
  have he : ((cfg0.win 5).blk t).view.emb (ix2 (0 : Fin 1) (0 : Fin 1)) = ix2 (0 : Fin 1) (0 : Fin 1) := by
    funext a; apply Fin.ext
    match a with
    | ⟨0, _⟩ => show win0_5.index t (0 : Fin 2) * 1 + 1 * 0 = 0; omega
    | ⟨1, _⟩ => show win0_5.index t (1 : Fin 2) * 1 + 1 * 0 = 0; omega
  rw [he, V_v1]
  refine shapeCast_apply _ _ _ (ix1 0) ?_
  rw [Shape.rowMajor_val_one, Shape.rowMajor_val_two]
  rfl

/-- The first output array before the unit axis is inserted: row `r`, column `q`. -/
def GZ2 (a0 a1 : Vec Ideal S500000x128 .f32) (a2 : Vec Ideal S128x64 .f32) (a3 : Vec Ideal S64 .f32) (a4 : Vec Ideal S64x1 .f32)
    (a5 : Vec Ideal S1 .f32) : S500000x256.Idx → EReal := fun i =>
  Cert.Spec.outZ (Cert.Spec.gate0 (Cert.Spec.score a2 a3 a4 a5 a0 (i 0)) (Cert.Spec.score a2 a3 a4 a5 a1 (i 0)))
    (Cert.Spec.gate1 (Cert.Spec.score a2 a3 a4 a5 a0 (i 0)) (Cert.Spec.score a2 a3 a4 a5 a1 (i 0)))
    (Cert.Spec.rowOf a0 (i 0)) (Cert.Spec.rowOf a1 (i 0)) (i 1)

/-- The second output array before the unit axis is appended: row `r`, weight `e`. -/
def GB2 (a0 a1 : Vec Ideal S500000x128 .f32) (a2 : Vec Ideal S128x64 .f32) (a3 : Vec Ideal S64 .f32) (a4 : Vec Ideal S64x1 .f32)
    (a5 : Vec Ideal S1 .f32) : S500000x2.Idx → EReal := fun i =>
  Cert.Spec.outB (Cert.Spec.gate0 (Cert.Spec.score a2 a3 a4 a5 a0 (i 0)) (Cert.Spec.score a2 a3 a4 a5 a1 (i 0)))
    (Cert.Spec.gate1 (Cert.Spec.score a2 a3 a4 a5 a0 (i 0)) (Cert.Spec.score a2 a3 a4 a5 a1 (i 0))) (i 1)

theorem rows0 (c : Dev nD) (t : Fin cfg0.N) (p : Fin 2000) :
    (fun k => xb0 m c t (ix2 p k)) = Cert.Spec.rowOf (arr0 m c) (rowAt t p) := funext fun k => blk0 m c t p k
theorem rows1 (c : Dev nD) (t : Fin cfg0.N) (p : Fin 2000) :
    (fun k => xb1 m c t (ix2 p k)) = Cert.Spec.rowOf (arr1 m c) (rowAt t p) := funext fun k => blk1 m c t p k
theorem bias3 (c : Dev nD) (t : Fin cfg0.N) :
    (fun j : Fin 64 => xb3 m c t (ix2 0 j)) = fun j => arr3 m c (ix1 j) := funext fun j => blk3 m c t j

/-- The score a grid point computes for row `p` of its first block is the score of row `2000 t + p` of the first array. -/
theorem blkScore0 (c : Dev nD) (t : Fin cfg0.N) (p : Fin 2000) :
    blkScore (xb0 m c t) (xb2 m c t) (xb3 m c t) (xb4 m c t) (xb5 m c t) p = (Cert.Spec.score (arr2 m c) (arr3 m c) (arr4 m c) (arr5 m c) (arr0 m c) (rowAt t p)) := by
  show Cert.Spec.rowScore (fun k => xb0 m c t (ix2 p k)) (xb2 m c t) (fun j => xb3 m c t (ix2 0 j)) (fun j => xb4 m c t (ix2 j 0))
      (xb5 m c t (ix2 0 0))
    = Cert.Spec.rowScore (Cert.Spec.rowOf (arr0 m c) (rowAt t p)) (arr2 m c) (fun j => arr3 m c (ix1 j)) (fun j => arr4 m c (ix2 j 0))
      (arr5 m c (ix1 0))
  rw [rows0, bias3, blk2, blk4, blk5]

/-- The same for the second block and the second array. -/
theorem blkScore1 (c : Dev nD) (t : Fin cfg0.N) (p : Fin 2000) :
    blkScore (xb1 m c t) (xb2 m c t) (xb3 m c t) (xb4 m c t) (xb5 m c t) p = (Cert.Spec.score (arr2 m c) (arr3 m c) (arr4 m c) (arr5 m c) (arr1 m c) (rowAt t p)) := by
  show Cert.Spec.rowScore (fun k => xb1 m c t (ix2 p k)) (xb2 m c t) (fun j => xb3 m c t (ix2 0 j)) (fun j => xb4 m c t (ix2 j 0))
      (xb5 m c t (ix2 0 0))
    = Cert.Spec.rowScore (Cert.Spec.rowOf (arr1 m c) (rowAt t p)) (arr2 m c) (fun j => arr3 m c (ix1 j)) (fun j => arr4 m c (ix2 j 0))
      (arr5 m c (ix1 0))
  rw [rows1, bias3, blk2, blk4, blk5]

/-- What grid point `t` writes back to the first output array is block `t` of `GZ2`. -/
theorem flushed6_eq (c : Dev nD) (t : Fin cfg0.N) :
    (dats m 0 c).flushed 6 t = ((cfg0.win 6).blk t).view.read (Elt Ideal) (GZ2 (arr0 m c) (arr1 m c) (arr2 m c) (arr3 m c) (arr4 m c) (arr5 m c)) := by
  show (cfg0.win 6).cut (grid0.coords t) ((dats m 0 c).after 6 t) = _
  rw [after0_6]
  obtain ⟨-, -, -, -, -, -, -, -, -, -, -, -, e0, e1, -⟩ := idx_facts t
  funext j
  obtain ⟨p, q, rfl⟩ : ∃ (p : Fin 2000) (q : Fin 256), j = ix2 p q := ⟨j 0, j 1, eq_ix2 j⟩
  have hemb : ((cfg0.win 6).blk t).view.emb (ix2 p q) = ix2 (rowAt t p) q := by
    funext a; apply Fin.ext
    match a with
    | ⟨0, _⟩ => show win0_6.index t (0 : Fin 2) * 2000 + 1 * p.val = 2000 * t.val + p.val; omega
    | ⟨1, _⟩ => show win0_6.index t (1 : Fin 2) * 256 + 1 * q.val = q.val; omega
  show out0_6 (xb0 m c t) (xb1 m c t) (xb2 m c t) (xb3 m c t) (xb4 m c t) (xb5 m c t) (ix2 p q)
    = GZ2 (arr0 m c) (arr1 m c) (arr2 m c) (arr3 m c) (arr4 m c) (arr5 m c) (((cfg0.win 6).blk t).view.emb (ix2 p q))
  rw [hemb, out6_apply, blkScore0, blkScore1, rows0, rows1]
  rfl

/-- What grid point `t` writes back to the second output array is block `t` of `GB2`. -/
theorem flushed7_eq (c : Dev nD) (t : Fin cfg0.N) :
    (dats m 0 c).flushed 7 t = ((cfg0.win 7).blk t).view.read (Elt Ideal) (GB2 (arr0 m c) (arr1 m c) (arr2 m c) (arr3 m c) (arr4 m c) (arr5 m c)) := by
  show (cfg0.win 7).cut (grid0.coords t) ((dats m 0 c).after 7 t) = _
  rw [after0_7]
  obtain ⟨-, -, -, -, -, -, -, -, -, -, -, -, -, -, e0, e1⟩ := idx_facts t
  funext j
  obtain ⟨p, e, rfl⟩ : ∃ (p : Fin 2000) (e : Fin 2), j = ix2 p e := ⟨j 0, j 1, eq_ix2 j⟩
  have hemb : ((cfg0.win 7).blk t).view.emb (ix2 p e) = ix2 (rowAt t p) e := by
    funext a; apply Fin.ext
    match a with
    | ⟨0, _⟩ => show win0_7.index t (0 : Fin 2) * 2000 + 1 * p.val = 2000 * t.val + p.val; omega
    | ⟨1, _⟩ => show win0_7.index t (1 : Fin 2) * 2 + 1 * e.val = e.val; omega
  show out0_7 (xb0 m c t) (xb1 m c t) (xb2 m c t) (xb3 m c t) (xb4 m c t) (xb5 m c t) (ix2 p e)
    = GB2 (arr0 m c) (arr1 m c) (arr2 m c) (arr3 m c) (arr4 m c) (arr5 m c) (((cfg0.win 7).blk t).view.emb (ix2 p e))
  rw [hemb, out7_apply, blkScore0, blkScore1]
  rfl

/-- An index of the first output array is in point `t`'s block iff each coordinate is in the block's range. -/
theorem mem_blk6 (t : Fin cfg0.N) (i : S500000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v2_0).slice (win0_6.rect t)).set ↔ _
  rw [View.set_slice_whole, Rect.mem_set_unit]
  exact Iff.rfl

theorem mem_blk7 (t : Fin cfg0.N) (i : S500000x2.Idx) :
    i ∈ ((cfg0.win 7).blk t).view.set ↔ ∀ a : Fin 2, win0_7.index t a * S2000x2.size a ≤ (i a).val ∧ (i a).val < win0_7.index t a * S2000x2.size a + S2000x2.size a := by
  show i ∈ ((View.whole main_v2_1).slice (win0_7.rect t)).set ↔ _
  rw [View.set_slice_whole, Rect.mem_set_unit]
  exact Iff.rfl

/-- The grid point whose block holds row `r`. -/
def pointOf (r : Nat) (h : r < 500000) : Fin cfg0.N := ⟨r / 2000, by show r / 2000 < 250; omega⟩

/-- Every index of the first output array is in the block of the point that owns its row. -/
theorem cover6 (i : S500000x256.Idx) : ∃ t : Fin cfg0.N, (cfg0.win 6).flush t = true ∧ i ∈ ((cfg0.win 6).blk t).view.set := by
  have hi0 : (i 0).val < 500000 := (i 0).isLt
  have hi1 : (i 1).val < 256 := (i 1).isLt
  refine ⟨pointOf (i 0).val hi0, flush0_6 _, ?_⟩
  rw [mem_blk6]
  obtain ⟨-, -, -, -, -, -, -, -, -, -, -, -, e0, e1, -⟩ := idx_facts (pointOf (i 0).val hi0)
  have ht : (pointOf (i 0).val hi0).val = (i 0).val / 2000 := rfl
  intro a
  match a with
  | ⟨0, _⟩ => show win0_6.index (pointOf (i 0).val hi0) (0 : Fin 2) * 2000 ≤ (i 0).val ∧ (i 0).val < win0_6.index (pointOf (i 0).val hi0) (0 : Fin 2) * 2000 + 2000; omega
  | ⟨1, _⟩ => show win0_6.index (pointOf (i 0).val hi0) (1 : Fin 2) * 256 ≤ (i 1).val ∧ (i 1).val < win0_6.index (pointOf (i 0).val hi0) (1 : Fin 2) * 256 + 256; omega

theorem cover7 (i : S500000x2.Idx) : ∃ t : Fin cfg0.N, (cfg0.win 7).flush t = true ∧ i ∈ ((cfg0.win 7).blk t).view.set := by
  have hi0 : (i 0).val < 500000 := (i 0).isLt
  have hi1 : (i 1).val < 2 := (i 1).isLt
  refine ⟨pointOf (i 0).val hi0, flush0_7 _, ?_⟩
  rw [mem_blk7]
  obtain ⟨-, -, -, -, -, -, -, -, -, -, -, -, -, -, e0, e1⟩ := idx_facts (pointOf (i 0).val hi0)
  have ht : (pointOf (i 0).val hi0).val = (i 0).val / 2000 := rfl
  intro a
  match a with
  | ⟨0, _⟩ => show win0_7.index (pointOf (i 0).val hi0) (0 : Fin 2) * 2000 ≤ (i 0).val ∧ (i 0).val < win0_7.index (pointOf (i 0).val hi0) (0 : Fin 2) * 2000 + 2000; omega
  | ⟨1, _⟩ => show win0_7.index (pointOf (i 0).val hi0) (1 : Fin 2) * 2 ≤ (i 1).val ∧ (i 1).val < win0_7.index (pointOf (i 0).val hi0) (1 : Fin 2) * 2 + 2; omega

/-- After the region the first output array is `GZ2` of the argument arrays. -/
theorem final6 (c : Dev nD) : (dats m 0 c).arrAt 6 cfg0.N = GZ2 (arr0 m c) (arr1 m c) (arr2 m c) (arr3 m c) (arr4 m c) (arr5 m c) :=
  (dats m 0 c).arrAt_eq_of_cover 6 (GZ2 (arr0 m c) (arr1 m c) (arr2 m c) (arr3 m c) (arr4 m c) (arr5 m c)) (fun t _ => flushed6_eq m c t) cover6

/-- After the region the second output array is `GB2` of the argument arrays. -/
theorem final7 (c : Dev nD) : (dats m 0 c).arrAt 7 cfg0.N = GB2 (arr0 m c) (arr1 m c) (arr2 m c) (arr3 m c) (arr4 m c) (arr5 m c) :=
  (dats m 0 c).arrAt_eq_of_cover 7 (GB2 (arr0 m c) (arr1 m c) (arr2 m c) (arr3 m c) (arr4 m c) (arr5 m c)) (fun t _ => flushed7_eq m c t) cover7

/-- Inserting a unit middle axis into `GZ2` gives the first result of the specification. -/
theorem gateZ_of (a0 a1 : Vec Ideal S500000x128 .f32) (a2 : Vec Ideal S128x64 .f32) (a3 : Vec Ideal S64 .f32) (a4 : Vec Ideal S64x1 .f32)
    (a5 : Vec Ideal S1 .f32) :
    shapeCast S500000x1x256 (GZ2 a0 a1 a2 a3 a4 a5) shapeCasts_S500000x256_S500000x1x256 = Cert.Spec.gateZ a0 a1 a2 a3 a4 a5 := by
  funext i
  obtain ⟨r, z, q, rfl⟩ : ∃ (r : Fin 500000) (z : Fin 1) (q : Fin 256), i = ix3 r z q := ⟨i 0, i 1, i 2, eq_ix3 i⟩
  refine (shapeCast_apply _ _ _ (ix2 r q) ?_).trans rfl
  rw [Shape.rowMajor_val_two, Shape.rowMajor_val_three]
  show r.val * 256 + q.val = (r.val * 1 + z.val) * 256 + q.val
  have := z.isLt
  omega

/-- Appending a unit last axis to `GB2` gives the second result of the specification. -/
theorem gateB_of (a0 a1 : Vec Ideal S500000x128 .f32) (a2 : Vec Ideal S128x64 .f32) (a3 : Vec Ideal S64 .f32) (a4 : Vec Ideal S64x1 .f32)
    (a5 : Vec Ideal S1 .f32) :
    shapeCast S500000x2x1 (GB2 a0 a1 a2 a3 a4 a5) shapeCasts_S500000x2_S500000x2x1 = Cert.Spec.gateB a0 a1 a2 a3 a4 a5 := by
  funext i
  obtain ⟨r, e, z, rfl⟩ : ∃ (r : Fin 500000) (e : Fin 2) (z : Fin 1), i = ix3 r e z := ⟨i 0, i 1, i 2, eq_ix3 i⟩
  refine (shapeCast_apply _ _ _ (ix2 r e) ?_).trans rfl
  rw [Shape.rowMajor_val_two, Shape.rowMajor_val_three]
  show r.val * 2 + e.val = (r.val * 2 + e.val) * 1 + z.val
  have := z.isLt
  omega

/-- The first result after the reshapes that follow the region. -/
theorem tail_v3 (c : Dev nD) :
    Pipeline.afterTail₀ cfgs (dats m) 0 (V0 m) [hostOps1] c main_v3 = Cert.Spec.gateZ (arr0 m c) (arr1 m c) (arr2 m c) (arr3 m c) (arr4 m c) (arr5 m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2_0)
      = GZ2 (arr0 m c) (arr1 m c) (arr2 m c) (arr3 m c) (arr4 m c) (arr5 m c) :=
    (Pipeline.withArrays_arr spec0 launch0.win.arr_inj c _ _ 6).trans (final6 m c)
  show shapeCast S500000x1x256 (Pipeline.withArrays (cfgs 0).spec c (V0 m c) (fun w => (dats m 0 c).arrAt w (cfgs 0).N)
      (Proc.devRef .tc main_v2_0)) shapeCasts_S500000x256_S500000x1x256 = _
  rw [hw]
  exact gateZ_of _ _ _ _ _ _

/-- The second result after the reshapes that follow the region. -/
theorem tail_v4 (c : Dev nD) :
    Pipeline.afterTail₀ cfgs (dats m) 0 (V0 m) [hostOps1] c main_v4 = Cert.Spec.gateB (arr0 m c) (arr1 m c) (arr2 m c) (arr3 m c) (arr4 m c) (arr5 m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v2_1)
      = GB2 (arr0 m c) (arr1 m c) (arr2 m c) (arr3 m c) (arr4 m c) (arr5 m c) :=
    (Pipeline.withArrays_arr spec0 launch0.win.arr_inj c _ _ 7).trans (final7 m c)
  show shapeCast S500000x2x1 (Pipeline.withArrays (cfgs 0).spec c (V0 m c) (fun w => (dats m 0 c).arrAt w (cfgs 0).N)
      (Proc.devRef .tc main_v2_1)) shapeCasts_S500000x2_S500000x2x1 = _
  rw [hw]
  exact gateB_of _ _ _ _ _ _

/-- Every fair execution of the idealized kernel program terminates with its two results at the logistic form of the
    specification, its six argument arrays unchanged. -/
theorem run : θ_run defs (onTc (τ := τ) (main (F := Ideal))) ⟨m, fun _ => 0, ρ⟩ fun r => ∀ c : Dev nD,
      r.2.mem ((c.tc : Thread nD τ).loc main_v3) = Cert.Spec.gateZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v4) = Cert.Spec.gateB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v3 (Pipeline.mem_restRefs_of main_v3 (by decide) (by decide))).trans (tail_v3 m c),
      ((h c).2 main_v4 (Pipeline.mem_restRefs_of main_v4 (by decide) (by decide))).trans (tail_v4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KValue

end
-- ==== Proof.RefStages.lean ====
/-
  The reference program's result arrays as functions of its six argument arrays: its host operations composed, stage by
  stage, in the order the program applies them. `hid` is the hidden layer before the rectifier, `lrelu` the rectifier
  (a select on `h ≥ 0` between `h` and `slope · h`), `sc` the column of scores, `stacked` the two score columns side by
  side, `rowMax` their row maximum, `expd` the exponentials of the shifted scores, `resB` those divided by their row sum
  (the second result), `weighted0` / `weighted1` the rows scaled by their weight, and `resZ` the hyperbolic tangent of the
  two halves side by side with a unit axis inserted (the first result).
-/
import proofs.«132624_j17901423690230_1_alg».proof.Proof.Gen.ReferenceIdeal

noncomputable section

namespace Cert.ReferenceIdeal.Stages

open Idealize.ShloMosaic Cert.ReferenceIdeal Cert.ReferenceIdeal.Facts₀

variable {F : FTy → Type} [FloatOps F]
variable (a0 a1 : FVec F S500000x128 .f32) (a2 : FVec F S128x64 .f32) (a3 : FVec F S64 .f32) (a4 : FVec F S64x1 .f32)
  (a5 : FVec F S1 .f32)

/-- The hidden layer of every row of `x`, before the rectifier: `x · W1 + b1`. -/
def hid (x : FVec F S500000x128 .f32) : FVec F S500000x64 .f32 :=
  addf (Host.dotGeneral dot_S500000x128_S128x64_S500000x64_1_0_0_1_n_n none x a2)
    (broadcastInDim S500000x64 ![0, 1] bcast_S1x64_S500000x64_0_1 (broadcastInDim S1x64 ![1] bcast_S64_S1x64_1 a3))

/-- The leaky rectifier, entry by entry. -/
def lrelu (h : FVec F S500000x64 .f32) : FVec F S500000x64 .f32 :=
  select (cmpf .oge h (broadcastInDim S500000x64 ![] bcast_S_S500000x64 (constant S_ .f32 0x00000000#32))) h
    (mulf (broadcastInDim S500000x64 ![] bcast_S_S500000x64 (id (constant S_ .f32 0x3C23D70A#32))) h)

/-- The column of scores of the rows of `x`. -/
def sc (x : FVec F S500000x128 .f32) : FVec F S500000x1 .f32 :=
  addf (Host.dotGeneral dot_S500000x64_S64x1_S500000x1_1_0_0_1_n_n none (lrelu (hid a2 a3 x)) a4)
    (broadcastInDim S500000x1 ![0, 1] bcast_S1x1_S500000x1_0_1 (broadcastInDim S1x1 ![1] bcast_S1_S1x1_1 a5))

/-- The two score columns side by side along a new middle axis. -/
def stacked : FVec F S500000x2x1 .f32 :=
  concatenate S500000x2x1 1
    [⟨S500000x1x1, broadcastInDim S500000x1x1 ![0, 2] bcast_S500000x1_S500000x1x1_0_2 (sc a2 a3 a4 a5 a0)⟩,
     ⟨S500000x1x1, broadcastInDim S500000x1x1 ![0, 2] bcast_S500000x1_S500000x1x1_0_2 (sc a2 a3 a4 a5 a1)⟩]
    concatenates_S500000x1x1_S500000x1x1_S500000x2x1_d1

/-- The larger of each row's two scores (a maximum from minus infinity, taken once more against minus infinity). -/
def rowMax : FVec F S500000x1 .f32 :=
  maximumf (broadcastInDim S500000x1 ![] bcast_S_S500000x1 (constant S_ .f32 0xFF800000#32))
    (Host.reduce FloatOps.maximumf (stacked a0 a1 a2 a3 a4 a5) (constant S_ .f32 0xFF800000#32)
      reducesTo_S500000x2x1_S500000x1_d1 h_S_)

/-- The exponentials of the scores shifted by their row maximum. -/
def expd : FVec F S500000x2x1 .f32 :=
  Host.exp (subf (stacked a0 a1 a2 a3 a4 a5)
    (broadcastInDim S500000x2x1 ![0, 1, 2] bcast_S500000x1x1_S500000x2x1_0_1_2
      (broadcastInDim S500000x1x1 ![0, 2] bcast_S500000x1_S500000x1x1_0_2 (rowMax a0 a1 a2 a3 a4 a5))))

/-- The second result: each exponential over its row's sum. -/
def resB : FVec F S500000x2x1 .f32 :=
  Host.divf (expd a0 a1 a2 a3 a4 a5)
    (broadcastInDim S500000x2x1 ![0, 1, 2] bcast_S500000x1x1_S500000x2x1_0_1_2
      (broadcastInDim S500000x1x1 ![0, 2] bcast_S500000x1_S500000x1x1_0_2
        (Host.reduceAdd (expd a0 a1 a2 a3 a4 a5) (constant S_ .f32 0x00000000#32) reducesTo_S500000x2x1_S500000x1_d1 h_S_)))

/-- The rows of the first argument scaled by their weight. -/
def weighted0 : FVec F S500000x128 .f32 :=
  mulf (broadcastInDim S500000x128 ![0, 1] bcast_S500000x1_S500000x128_0_1
    (shapeCast S500000x1 (extractStridedSlice S500000x1x1 ![0, 0, 0] (resB a0 a1 a2 a3 a4 a5) slices_S500000x2x1_S500000x1x1_0_0_0)
      shapeCasts_S500000x1x1_S500000x1)) a0

/-- The rows of the second argument scaled by their weight. -/
def weighted1 : FVec F S500000x128 .f32 :=
  mulf (broadcastInDim S500000x128 ![0, 1] bcast_S500000x1_S500000x128_0_1
    (shapeCast S500000x1 (extractStridedSlice S500000x1x1 ![0, 1, 0] (resB a0 a1 a2 a3 a4 a5) slices_S500000x2x1_S500000x1x1_0_1_0)
      shapeCasts_S500000x1x1_S500000x1)) a1

/-- The first result: the hyperbolic tangent of the two scaled halves side by side, a unit axis inserted. -/
def resZ : FVec F S500000x1x256 .f32 :=
  broadcastInDim S500000x1x256 ![0, 2] bcast_S500000x256_S500000x1x256_0_2
    (Host.tanh (concatenate S500000x256 1
      [⟨S500000x128, weighted0 a0 a1 a2 a3 a4 a5⟩, ⟨S500000x128, weighted1 a0 a1 a2 a3 a4 a5⟩]
      concatenates_S500000x128_S500000x128_S500000x256_d1))

end Cert.ReferenceIdeal.Stages

end
-- ==== Proof.RefRun.lean ====
/-
  The reference program run: every fair execution ends with its two results at the composed stages of the arguments.
-/
import proofs.«132624_j17901423690230_1_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as ten stretches of host operations

Each call of the rectifier is replaced by the seven operations of its body (the inner select included) over that call's
own buffers. -/

/-- The hidden layer of the first argument's rows: the product, the bias spread over the rows, their sum. -/
abbrev opsA : List (HloOp τ sig (Elt F)) :=
  [ binary main_arg0 main_arg2 main_v0 (fun l r => Host.dotGeneral dot_S500000x128_S128x64_S500000x64_1_0_0_1_n_n none l r),
    unary main_arg3 main_v1 (broadcastInDim S1x64 ![1] bcast_S64_S1x64_1),
    unary main_v1 main_v2 (broadcastInDim S500000x64 ![0, 1] bcast_S1x64_S500000x64_0_1),
    binary main_v0 main_v2 main_v3 addf ]

/-- The slope, then the rectifier on the first hidden layer: zero spread, the comparison, the slope spread, the product,
    the select. -/
abbrev opsB : List (HloOp τ sig (Elt F)) :=
  [ nullary main_cst (constant S_ .f32 0x3C23D70A#32),
    TRef.nullary main_call0.cst (constant S_ .f32 0x00000000#32),
    TRef.unary main_call0.cst main_call0.v0 (broadcastInDim S500000x64 ![] bcast_S_S500000x64),
    TRef.binary (.of main_v3) main_call0.v0 main_call0.v1 (cmpf .oge),
    TRef.unary (.of main_cst) main_call0.v2 id,
    TRef.unary main_call0.v2 main_call0.v3 (broadcastInDim S500000x64 ![] bcast_S_S500000x64),
    TRef.binary main_call0.v3 (.of main_v3) main_call0.v4 mulf,
    TRef.ternary main_call0.v1 (.of main_v3) main_call0.v4 main_call0.call0.v0 select ]

/-- The first score column: the product with the second weight column, its bias spread, their sum. -/
abbrev opsC : List (HloOp τ sig (Elt F)) :=
  [ binary main_v4 main_arg4 main_v5 (fun l r => Host.dotGeneral dot_S500000x64_S64x1_S500000x1_1_0_0_1_n_n none l r),
    unary main_arg5 main_v6 (broadcastInDim S1x1 ![1] bcast_S1_S1x1_1),
    unary main_v6 main_v7 (broadcastInDim S500000x1 ![0, 1] bcast_S1x1_S500000x1_0_1),
    binary main_v5 main_v7 main_v8 addf ]

/-- The hidden layer of the second argument's rows. -/
abbrev opsD : List (HloOp τ sig (Elt F)) :=
  [ binary main_arg1 main_arg2 main_v9 (fun l r => Host.dotGeneral dot_S500000x128_S128x64_S500000x64_1_0_0_1_n_n none l r),
    unary main_arg3 main_v10 (broadcastInDim S1x64 ![1] bcast_S64_S1x64_1),
    unary main_v10 main_v11 (broadcastInDim S500000x64 ![0, 1] bcast_S1x64_S500000x64_0_1),
    binary main_v9 main_v11 main_v12 addf ]

/-- The slope, then the rectifier on the second hidden layer. -/
abbrev opsE : List (HloOp τ sig (Elt F)) :=
  [ nullary main_cst_0 (constant S_ .f32 0x3C23D70A#32),
    TRef.nullary main_call1.cst (constant S_ .f32 0x00000000#32),
    TRef.unary main_call1.cst main_call1.v0 (broadcastInDim S500000x64 ![] bcast_S_S500000x64),
    TRef.binary (.of main_v12) main_call1.v0 main_call1.v1 (cmpf .oge),
    TRef.unary (.of main_cst_0) main_call1.v2 id,
    TRef.unary main_call1.v2 main_call1.v3 (broadcastInDim S500000x64 ![] bcast_S_S500000x64),
    TRef.binary main_call1.v3 (.of main_v12) main_call1.v4 mulf,
    TRef.ternary main_call1.v1 (.of main_v12) main_call1.v4 main_call1.call0.v0 select ]

/-- The second score column. -/
abbrev opsF : List (HloOp τ sig (Elt F)) :=
  [ binary main_v13 main_arg4 main_v14 (fun l r => Host.dotGeneral dot_S500000x64_S64x1_S500000x1_1_0_0_1_n_n none l r),
    unary main_arg5 main_v15 (broadcastInDim S1x1 ![1] bcast_S1_S1x1_1),
    unary main_v15 main_v16 (broadcastInDim S500000x1 ![0, 1] bcast_S1x1_S500000x1_0_1),
    binary main_v14 main_v16 main_v17 addf ]

/-- A unit axis on each score column, then the two side by side. -/
abbrev opsG : List (HloOp τ sig (Elt F)) :=
  [ unary main_v8 main_v18 (broadcastInDim S500000x1x1 ![0, 2] bcast_S500000x1_S500000x1x1_0_2),
    unary main_v17 main_v19 (broadcastInDim S500000x1x1 ![0, 2] bcast_S500000x1_S500000x1x1_0_2),
    binary main_v18 main_v19 main_v20 (fun a b => concatenate S500000x2x1 1 [⟨S500000x1x1, a⟩, ⟨S500000x1x1, b⟩] concatenates_S500000x1x1_S500000x1x1_S500000x2x1_d1) ]

/-- The row maximum of the stacked scores, spread back over the pair; the difference and its exponential. -/
abbrev opsH : List (HloOp τ sig (Elt F)) :=
  [ nullary main_cst_1 (constant S_ .f32 0xFF800000#32),
    binary main_v20 main_cst_1 main_v21 (fun x v => Host.reduce FloatOps.maximumf x v reducesTo_S500000x2x1_S500000x1_d1 h_S_),
    nullary main_cst_2 (constant S_ .f32 0xFF800000#32),
    unary main_cst_2 main_v22 (broadcastInDim S500000x1 ![] bcast_S_S500000x1),
    binary main_v22 main_v21 main_v23 maximumf,
    unary main_v23 main_v24 (broadcastInDim S500000x1x1 ![0, 2] bcast_S500000x1_S500000x1x1_0_2),
    unary main_v24 main_v25 (broadcastInDim S500000x2x1 ![0, 1, 2] bcast_S500000x1x1_S500000x2x1_0_1_2),
    binary main_v20 main_v25 main_v26 subf,
    unary main_v26 main_v27 Host.exp ]

/-- The row sum of the exponentials, spread back over the pair; the quotient. -/
abbrev opsI : List (HloOp τ sig (Elt F)) :=
  [ nullary main_cst_3 (constant S_ .f32 0x00000000#32),
    binary main_v27 main_cst_3 main_v28 (fun x v => Host.reduceAdd x v reducesTo_S500000x2x1_S500000x1_d1 h_S_),
    unary main_v28 main_v29 (broadcastInDim S500000x1x1 ![0, 2] bcast_S500000x1_S500000x1x1_0_2),
    unary main_v29 main_v30 (broadcastInDim S500000x2x1 ![0, 1, 2] bcast_S500000x1x1_S500000x2x1_0_1_2),
    binary main_v27 main_v30 main_v31 Host.divf ]

/-- Each weight sliced out, reshaped to a column, spread over its argument's rows and multiplied in; the halves side by
    side, the hyperbolic tangent, the unit axis. -/
abbrev opsJ : List (HloOp τ sig (Elt F)) :=
  [ unary main_v31 main_v32 (extractStridedSlice S500000x1x1 ![0, 0, 0] · slices_S500000x2x1_S500000x1x1_0_0_0),
    reshape main_v32 main_v33 rfl shapeCasts_S500000x1x1_S500000x1,
    unary main_v33 main_v34 (broadcastInDim S500000x128 ![0, 1] bcast_S500000x1_S500000x128_0_1),
    binary main_v34 main_arg0 main_v35 mulf,
    unary main_v31 main_v36 (extractStridedSlice S500000x1x1 ![0, 1, 0] · slices_S500000x2x1_S500000x1x1_0_1_0),
    reshape main_v36 main_v37 rfl shapeCasts_S500000x1x1_S500000x1,
    unary main_v37 main_v38 (broadcastInDim S500000x128 ![0, 1] bcast_S500000x1_S500000x128_0_1),
    binary main_v38 main_arg1 main_v39 mulf,
    binary main_v35 main_v39 main_v40 (fun a b => concatenate S500000x256 1 [⟨S500000x128, a⟩, ⟨S500000x128, b⟩] concatenates_S500000x128_S500000x128_S500000x256_d1),
    unary main_v40 main_v41 Host.tanh,
    unary main_v41 main_v42 (broadcastInDim S500000x1x256 ![0, 2] bcast_S500000x256_S500000x1x256_0_2) ]

/-- The program's sixty host operations, in the order it applies them. -/
abbrev ops : List (HloOp τ sig (Elt F)) :=
  opsA ++ opsB ++ opsC ++ opsD ++ opsE ++ opsF ++ opsG ++ opsH ++ opsI ++ opsJ

set_option maxRecDepth 4096 in
/-- The program is that straight line: the two functions unfolded at their calls, sequencing reassociated. -/
theorem main_eq (c : Dev nD) : main (F := F) c = seq ops := by
  simp only [main, fn_leaky_relu.body, fn_where.body, ops, opsA, opsB, opsC, opsD, opsE, opsF, opsG, opsH, opsI, opsJ,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨binary_bufs_sub .., unary_bufs_sub .., unary_bufs_sub .., binary_bufs_sub ..,
   nullary_bufs_sub .., nullary_bufs_sub .., unary_bufs_sub .., binary_bufs_sub .., unary_bufs_sub .., unary_bufs_sub ..,
   binary_bufs_sub .., ternary_bufs_sub ..,
   binary_bufs_sub .., unary_bufs_sub .., unary_bufs_sub .., binary_bufs_sub ..,
   binary_bufs_sub .., unary_bufs_sub .., unary_bufs_sub .., binary_bufs_sub ..,
   nullary_bufs_sub .., nullary_bufs_sub .., unary_bufs_sub .., binary_bufs_sub .., unary_bufs_sub .., unary_bufs_sub ..,
   binary_bufs_sub .., ternary_bufs_sub ..,
   binary_bufs_sub .., unary_bufs_sub .., unary_bufs_sub .., binary_bufs_sub ..,
   unary_bufs_sub .., unary_bufs_sub .., binary_bufs_sub ..,
   nullary_bufs_sub .., binary_bufs_sub .., nullary_bufs_sub .., unary_bufs_sub .., binary_bufs_sub .., unary_bufs_sub ..,
   unary_bufs_sub .., binary_bufs_sub .., unary_bufs_sub ..,
   nullary_bufs_sub .., binary_bufs_sub .., unary_bufs_sub .., unary_bufs_sub .., binary_bufs_sub ..,
   unary_bufs_sub .., reshape_bufs_sub .., unary_bufs_sub .., binary_bufs_sub .., unary_bufs_sub .., reshape_bufs_sub ..,
   unary_bufs_sub .., binary_bufs_sub .., binary_bufs_sub .., unary_bufs_sub .., unary_bufs_sub ..⟩

/-- Two lines in a row fold as the second after the first. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each stretch writes, and the contents after each -/

/-- One operation's result buffer is among the listed ones. -/
local macro "writes_in" : tactic =>
  `(tactic| (simp only [nullary_writes, unary_writes, binary_writes, ternary_writes, reshape_writes,
      Finset.singleton_subset_iff, List.mem_toFinset]; exact List.mem_map_of_mem (by decide)))

abbrev opsA_W : List (Ref sig .tc) := [main_v0, main_v1, main_v2, main_v3]
abbrev opsB_W : List (Ref sig .tc) :=
  [main_cst, main_call0_cst, main_call0_v0, main_call0_v1, main_call0_v2, main_call0_v3, main_call0_v4, main_v4]
abbrev opsC_W : List (Ref sig .tc) := [main_v5, main_v6, main_v7, main_v8]
abbrev opsD_W : List (Ref sig .tc) := [main_v9, main_v10, main_v11, main_v12]
abbrev opsE_W : List (Ref sig .tc) :=
  [main_cst_0, main_call1_cst, main_call1_v0, main_call1_v1, main_call1_v2, main_call1_v3, main_call1_v4, main_v13]
abbrev opsF_W : List (Ref sig .tc) := [main_v14, main_v15, main_v16, main_v17]
abbrev opsG_W : List (Ref sig .tc) := [main_v18, main_v19, main_v20]
abbrev opsH_W : List (Ref sig .tc) :=
  [main_cst_1, main_v21, main_cst_2, main_v22, main_v23, main_v24, main_v25, main_v26, main_v27]
abbrev opsI_W : List (Ref sig .tc) := [main_cst_3, main_v28, main_v29, main_v30, main_v31]
abbrev opsJ_W : List (Ref sig .tc) :=
  [main_v32, main_v33, main_v34, main_v35, main_v36, main_v37, main_v38, main_v39, main_v40, main_v41, main_v42]

theorem opsA_writes : (opsA : List (HloOp τ sig (Elt F))).Forall fun op => op.writes ⊆ (opsA_W.map (Proc.devRef (τ := τ) .tc)).toFinset := by
  simp only [List.Forall]
  refine ⟨?_, ?_, ?_, ?_⟩ <;> writes_in
theorem opsB_writes : (opsB : List (HloOp τ sig (Elt F))).Forall fun op => op.writes ⊆ (opsB_W.map (Proc.devRef (τ := τ) .tc)).toFinset := by
  simp only [List.Forall]
  refine ⟨?_, ?_, ?_, ?_, ?_, ?_, ?_, ?_⟩ <;> writes_in
theorem opsC_writes : (opsC : List (HloOp τ sig (Elt F))).Forall fun op => op.writes ⊆ (opsC_W.map (Proc.devRef (τ := τ) .tc)).toFinset := by
  simp only [List.Forall]
  refine ⟨?_, ?_, ?_, ?_⟩ <;> writes_in
theorem opsD_writes : (opsD : List (HloOp τ sig (Elt F))).Forall fun op => op.writes ⊆ (opsD_W.map (Proc.devRef (τ := τ) .tc)).toFinset := by
  simp only [List.Forall]
  refine ⟨?_, ?_, ?_, ?_⟩ <;> writes_in
theorem opsE_writes : (opsE : List (HloOp τ sig (Elt F))).Forall fun op => op.writes ⊆ (opsE_W.map (Proc.devRef (τ := τ) .tc)).toFinset := by
  simp only [List.Forall]
  refine ⟨?_, ?_, ?_, ?_, ?_, ?_, ?_, ?_⟩ <;> writes_in
theorem opsF_writes : (opsF : List (HloOp τ sig (Elt F))).Forall fun op => op.writes ⊆ (opsF_W.map (Proc.devRef (τ := τ) .tc)).toFinset := by
  simp only [List.Forall]
  refine ⟨?_, ?_, ?_, ?_⟩ <;> writes_in
theorem opsG_writes : (opsG : List (HloOp τ sig (Elt F))).Forall fun op => op.writes ⊆ (opsG_W.map (Proc.devRef (τ := τ) .tc)).toFinset := by
  simp only [List.Forall]
  refine ⟨?_, ?_, ?_⟩ <;> writes_in
theorem opsH_writes : (opsH : List (HloOp τ sig (Elt F))).Forall fun op => op.writes ⊆ (opsH_W.map (Proc.devRef (τ := τ) .tc)).toFinset := by
  simp only [List.Forall]
  refine ⟨?_, ?_, ?_, ?_, ?_, ?_, ?_, ?_, ?_⟩ <;> writes_in
theorem opsI_writes : (opsI : List (HloOp τ sig (Elt F))).Forall fun op => op.writes ⊆ (opsI_W.map (Proc.devRef (τ := τ) .tc)).toFinset := by
  simp only [List.Forall]
  refine ⟨?_, ?_, ?_, ?_, ?_⟩ <;> writes_in
theorem opsJ_writes : (opsJ : List (HloOp τ sig (Elt F))).Forall fun op => op.writes ⊆ (opsJ_W.map (Proc.devRef (τ := τ) .tc)).toFinset := by
  simp only [List.Forall]
  refine ⟨?_, ?_, ?_, ?_, ?_, ?_, ?_, ?_, ?_, ?_, ?_⟩ <;> writes_in

/-- The buffers' contents after the first stretch, the first two, … , all ten, from contents V. -/
def val1 (V : Valuation τ sig (Elt F)) : Valuation τ sig (Elt F) := after opsA V
def val2 (V : Valuation τ sig (Elt F)) : Valuation τ sig (Elt F) := after opsB (val1 V)
def val3 (V : Valuation τ sig (Elt F)) : Valuation τ sig (Elt F) := after opsC (val2 V)
def val4 (V : Valuation τ sig (Elt F)) : Valuation τ sig (Elt F) := after opsD (val3 V)
def val5 (V : Valuation τ sig (Elt F)) : Valuation τ sig (Elt F) := after opsE (val4 V)
def val6 (V : Valuation τ sig (Elt F)) : Valuation τ sig (Elt F) := after opsF (val5 V)
def val7 (V : Valuation τ sig (Elt F)) : Valuation τ sig (Elt F) := after opsG (val6 V)
def val8 (V : Valuation τ sig (Elt F)) : Valuation τ sig (Elt F) := after opsH (val7 V)
def val9 (V : Valuation τ sig (Elt F)) : Valuation τ sig (Elt F) := after opsI (val8 V)
def val10 (V : Valuation τ sig (Elt F)) : Valuation τ sig (Elt F) := after opsJ (val9 V)

/-- The whole line's fold is the tenth of these. -/
theorem after_ops (V : Valuation τ sig (Elt F)) : after ops V = val10 V := by
  simp only [ops, after_app]
  rfl

/-! A buffer that a stretch does not write keeps its contents through it. -/

theorem val1_keep (V : Valuation τ sig (Elt F)) (r : Ref sig .tc) (h : r ∉ opsA_W) :
    val1 V (Proc.devRef .tc r) = V (Proc.devRef .tc r) := after_of_writes_sub opsA _ opsA_writes h
theorem val2_keep (V : Valuation τ sig (Elt F)) (r : Ref sig .tc) (h : r ∉ opsB_W) :
    val2 V (Proc.devRef .tc r) = val1 V (Proc.devRef .tc r) := after_of_writes_sub opsB _ opsB_writes h
theorem val3_keep (V : Valuation τ sig (Elt F)) (r : Ref sig .tc) (h : r ∉ opsC_W) :
    val3 V (Proc.devRef .tc r) = val2 V (Proc.devRef .tc r) := after_of_writes_sub opsC _ opsC_writes h
theorem val4_keep (V : Valuation τ sig (Elt F)) (r : Ref sig .tc) (h : r ∉ opsD_W) :
    val4 V (Proc.devRef .tc r) = val3 V (Proc.devRef .tc r) := after_of_writes_sub opsD _ opsD_writes h
theorem val5_keep (V : Valuation τ sig (Elt F)) (r : Ref sig .tc) (h : r ∉ opsE_W) :
    val5 V (Proc.devRef .tc r) = val4 V (Proc.devRef .tc r) := after_of_writes_sub opsE _ opsE_writes h
theorem val6_keep (V : Valuation τ sig (Elt F)) (r : Ref sig .tc) (h : r ∉ opsF_W) :
    val6 V (Proc.devRef .tc r) = val5 V (Proc.devRef .tc r) := after_of_writes_sub opsF _ opsF_writes h
theorem val7_keep (V : Valuation τ sig (Elt F)) (r : Ref sig .tc) (h : r ∉ opsG_W) :
    val7 V (Proc.devRef .tc r) = val6 V (Proc.devRef .tc r) := after_of_writes_sub opsG _ opsG_writes h
theorem val8_keep (V : Valuation τ sig (Elt F)) (r : Ref sig .tc) (h : r ∉ opsH_W) :
    val8 V (Proc.devRef .tc r) = val7 V (Proc.devRef .tc r) := after_of_writes_sub opsH _ opsH_writes h
theorem val9_keep (V : Valuation τ sig (Elt F)) (r : Ref sig .tc) (h : r ∉ opsI_W) :
    val9 V (Proc.devRef .tc r) = val8 V (Proc.devRef .tc r) := after_of_writes_sub opsI _ opsI_writes h
theorem val10_keep (V : Valuation τ sig (Elt F)) (r : Ref sig .tc) (h : r ∉ opsJ_W) :
    val10 V (Proc.devRef .tc r) = val9 V (Proc.devRef .tc r) := after_of_writes_sub opsJ _ opsJ_writes h

/-- The six argument buffers: no stretch writes one. -/
abbrev argRefs : List (Ref sig .tc) := [main_arg0, main_arg1, main_arg2, main_arg3, main_arg4, main_arg5]

theorem val1_arg (V : Valuation τ sig (Elt F)) (r : Ref sig .tc) (h : r ∈ argRefs) :
    val1 V (Proc.devRef .tc r) = V (Proc.devRef .tc r) := val1_keep V r (by revert r; decide)
theorem val2_arg (V : Valuation τ sig (Elt F)) (r : Ref sig .tc) (h : r ∈ argRefs) :
    val2 V (Proc.devRef .tc r) = V (Proc.devRef .tc r) := (val2_keep V r (by revert r; decide)).trans (val1_arg V r h)
theorem val3_arg (V : Valuation τ sig (Elt F)) (r : Ref sig .tc) (h : r ∈ argRefs) :
    val3 V (Proc.devRef .tc r) = V (Proc.devRef .tc r) := (val3_keep V r (by revert r; decide)).trans (val2_arg V r h)
theorem val4_arg (V : Valuation τ sig (Elt F)) (r : Ref sig .tc) (h : r ∈ argRefs) :
    val4 V (Proc.devRef .tc r) = V (Proc.devRef .tc r) := (val4_keep V r (by revert r; decide)).trans (val3_arg V r h)
theorem val5_arg (V : Valuation τ sig (Elt F)) (r : Ref sig .tc) (h : r ∈ argRefs) :
    val5 V (Proc.devRef .tc r) = V (Proc.devRef .tc r) := (val5_keep V r (by revert r; decide)).trans (val4_arg V r h)
theorem val6_arg (V : Valuation τ sig (Elt F)) (r : Ref sig .tc) (h : r ∈ argRefs) :
    val6 V (Proc.devRef .tc r) = V (Proc.devRef .tc r) := (val6_keep V r (by revert r; decide)).trans (val5_arg V r h)
theorem val7_arg (V : Valuation τ sig (Elt F)) (r : Ref sig .tc) (h : r ∈ argRefs) :
    val7 V (Proc.devRef .tc r) = V (Proc.devRef .tc r) := (val7_keep V r (by revert r; decide)).trans (val6_arg V r h)
theorem val8_arg (V : Valuation τ sig (Elt F)) (r : Ref sig .tc) (h : r ∈ argRefs) :
    val8 V (Proc.devRef .tc r) = V (Proc.devRef .tc r) := (val8_keep V r (by revert r; decide)).trans (val7_arg V r h)
theorem val9_arg (V : Valuation τ sig (Elt F)) (r : Ref sig .tc) (h : r ∈ argRefs) :
    val9 V (Proc.devRef .tc r) = V (Proc.devRef .tc r) := (val9_keep V r (by revert r; decide)).trans (val8_arg V r h)
theorem val10_arg (V : Valuation τ sig (Elt F)) (r : Ref sig .tc) (h : r ∈ argRefs) :
    val10 V (Proc.devRef .tc r) = V (Proc.devRef .tc r) := (val10_keep V r (by revert r; decide)).trans (val9_arg V r h)

/-! ## The live values after each stretch, as stages of the arguments -/

theorem val1_v3 (V : Valuation τ sig (Elt F)) :
    val1 V (main_v3 : DevRef τ sig)
      = Stages.hid (V (main_arg2 : DevRef τ sig)) (V (main_arg3 : DevRef τ sig)) (V (main_arg0 : DevRef τ sig)) := by
  unfold val1 Stages.hid
  after_results
  all_goals (try rfl)

theorem val2_v4 (V : Valuation τ sig (Elt F)) :
    val2 V (main_v4 : DevRef τ sig)
      = Stages.lrelu (Stages.hid (V (main_arg2 : DevRef τ sig)) (V (main_arg3 : DevRef τ sig)) (V (main_arg0 : DevRef τ sig))) := by
  unfold val2 Stages.lrelu
  rw [← val1_v3 V]
  after_results
  all_goals (try simp only [TRef.ofBuf, TRef.toBuf, cast_eq])
  all_goals (try rfl)

theorem val3_v8 (V : Valuation τ sig (Elt F)) :
    val3 V (main_v8 : DevRef τ sig)
      = Stages.sc (V (main_arg2 : DevRef τ sig)) (V (main_arg3 : DevRef τ sig)) (V (main_arg4 : DevRef τ sig))
          (V (main_arg5 : DevRef τ sig)) (V (main_arg0 : DevRef τ sig)) := by
  unfold val3 Stages.sc
  rw [← val2_v4 V, ← val2_arg V main_arg4 (by decide), ← val2_arg V main_arg5 (by decide)]
  after_results
  all_goals (try rfl)

theorem val4_v12 (V : Valuation τ sig (Elt F)) :
    val4 V (main_v12 : DevRef τ sig)
      = Stages.hid (V (main_arg2 : DevRef τ sig)) (V (main_arg3 : DevRef τ sig)) (V (main_arg1 : DevRef τ sig)) := by
  unfold val4 Stages.hid
  rw [← val3_arg V main_arg1 (by decide), ← val3_arg V main_arg2 (by decide), ← val3_arg V main_arg3 (by decide)]
  after_results
  all_goals (try rfl)
theorem val4_v8 (V : Valuation τ sig (Elt F)) :
    val4 V (main_v8 : DevRef τ sig)
      = Stages.sc (V (main_arg2 : DevRef τ sig)) (V (main_arg3 : DevRef τ sig)) (V (main_arg4 : DevRef τ sig))
          (V (main_arg5 : DevRef τ sig)) (V (main_arg0 : DevRef τ sig)) :=
  (val4_keep V main_v8 (by decide)).trans (val3_v8 V)

theorem val5_v13 (V : Valuation τ sig (Elt F)) :
    val5 V (main_v13 : DevRef τ sig)
      = Stages.lrelu (Stages.hid (V (main_arg2 : DevRef τ sig)) (V (main_arg3 : DevRef τ sig)) (V (main_arg1 : DevRef τ sig))) := by
  unfold val5 Stages.lrelu
  rw [← val4_v12 V]
  after_results
  all_goals (try simp only [TRef.ofBuf, TRef.toBuf, cast_eq])
  all_goals (try rfl)
theorem val5_v8 (V : Valuation τ sig (Elt F)) :
    val5 V (main_v8 : DevRef τ sig)
      = Stages.sc (V (main_arg2 : DevRef τ sig)) (V (main_arg3 : DevRef τ sig)) (V (main_arg4 : DevRef τ sig))
          (V (main_arg5 : DevRef τ sig)) (V (main_arg0 : DevRef τ sig)) :=
  (val5_keep V main_v8 (by decide)).trans (val4_v8 V)

theorem val6_v17 (V : Valuation τ sig (Elt F)) :
    val6 V (main_v17 : DevRef τ sig)
      = Stages.sc (V (main_arg2 : DevRef τ sig)) (V (main_arg3 : DevRef τ sig)) (V (main_arg4 : DevRef τ sig))
          (V (main_arg5 : DevRef τ sig)) (V (main_arg1 : DevRef τ sig)) := by
  unfold val6 Stages.sc
  rw [← val5_v13 V, ← val5_arg V main_arg4 (by decide), ← val5_arg V main_arg5 (by decide)]
  after_results
  all_goals (try rfl)
theorem val6_v8 (V : Valuation τ sig (Elt F)) :
    val6 V (main_v8 : DevRef τ sig)
      = Stages.sc (V (main_arg2 : DevRef τ sig)) (V (main_arg3 : DevRef τ sig)) (V (main_arg4 : DevRef τ sig))
          (V (main_arg5 : DevRef τ sig)) (V (main_arg0 : DevRef τ sig)) :=
  (val6_keep V main_v8 (by decide)).trans (val5_v8 V)

theorem val7_v20 (V : Valuation τ sig (Elt F)) :
    val7 V (main_v20 : DevRef τ sig)
      = Stages.stacked (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold val7 Stages.stacked
  rw [← val6_v8 V, ← val6_v17 V]
  after_results
  all_goals (try rfl)

theorem val8_v27 (V : Valuation τ sig (Elt F)) :
    val8 V (main_v27 : DevRef τ sig)
      = Stages.expd (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold val8 Stages.expd Stages.rowMax
  rw [← val7_v20 V]
  after_results
  all_goals (try rfl)

theorem val9_v31 (V : Valuation τ sig (Elt F)) :
    val9 V (main_v31 : DevRef τ sig)
      = Stages.resB (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold val9 Stages.resB
  rw [← val8_v27 V]
  after_results
  all_goals (try rfl)

theorem val10_v42 (V : Valuation τ sig (Elt F)) :
    val10 V (main_v42 : DevRef τ sig)
      = Stages.resZ (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold val10 Stages.resZ Stages.weighted0 Stages.weighted1
  rw [← val9_v31 V]
  after_results
  all_goals (try rw [val9_arg V main_arg0 (by decide), val9_arg V main_arg1 (by decide)])
  all_goals (try rfl)
theorem val10_v31 (V : Valuation τ sig (Elt F)) :
    val10 V (main_v31 : DevRef τ sig)
      = Stages.resB (V (main_arg0 : DevRef τ sig)) (V (main_arg1 : DevRef τ sig)) (V (main_arg2 : DevRef τ sig))
          (V (main_arg3 : DevRef τ sig)) (V (main_arg4 : DevRef τ sig)) (V (main_arg5 : DevRef τ sig)) :=
  (val10_keep V main_v31 (by decide)).trans (val9_v31 V)

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = Stages.resZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v31) = Stages.resB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c =>
      have e : ∀ b : Ref sig .tc, after ops (launchContents m c) (Proc.devRef .tc b)
          = val10 (launchContents m c) (Proc.devRef .tc b) :=
        fun b => congrFun (after_ops (launchContents m c)) (Proc.devRef .tc b)
      ⟨(h c main_v42).trans ((e main_v42).trans (val10_v42 _)),
       (h c main_v31).trans ((e main_v31).trans (val10_v31 _)),
       (h c main_arg0).trans ((e main_arg0).trans (val10_arg _ main_arg0 (by decide))),
       (h c main_arg1).trans ((e main_arg1).trans (val10_arg _ main_arg1 (by decide))),
       (h c main_arg2).trans ((e main_arg2).trans (val10_arg _ main_arg2 (by decide))),
       (h c main_arg3).trans ((e main_arg3).trans (val10_arg _ main_arg3 (by decide))),
       (h c main_arg4).trans ((e main_arg4).trans (val10_arg _ main_arg4 (by decide))),
       (h c main_arg5).trans ((e main_arg5).trans (val10_arg _ main_arg5 (by decide)))⟩)
    (run_seq scopedRefs_eq scopedSems_eq defs main (fun _ => ops) main_eq (fun _ => ops_sub) m ρ)

end Cert.ReferenceIdeal.RefRun

end
-- ==== Proof.RefScore.lean ====
/-
  The reference's column of scores, read row by row.

  The hidden layer of row r at entry j is the sum over the row's 128 entries of the products with the first weight
  matrix's column j, plus the bias at j. The rectifier selects on 0 ≤ h where the specification tests 0 < h; the two
  differ only at h = 0, where both give 0. The score is the sum over the 64 hidden entries, rectified, of the products
  with the second weight column, plus the second bias.
-/
import proofs.«132624_j17901423690230_1_alg».proof.Proof.RefStages
import proofs.«132624_j17901423690230_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost
import Idealize.ShloMosaic.Lib.StackMember
import Idealize.ShloMosaic.Lib.IdealHost

noncomputable section

namespace Cert.ReferenceIdeal.RefValue

open Idealize.ShloMosaic Idealize.ShloMosaic.ValueIdx Cert.ReferenceIdeal
open scoped BigOperators

/-- The first product's dimension numbers are the plain rows-by-columns ones. -/
theorem dot1_eq : dot_S500000x128_S128x64_S500000x64_1_0_0_1_n_n = DotDims.plain 500000 128 64 := rfl
/-- So are the second product's. -/
theorem dot2_eq : dot_S500000x64_S64x1_S500000x1_1_0_0_1_n_n = DotDims.plain 500000 64 1 := rfl

/-- A vector laid out as one row and then copied down every row, read at (r, j), is the vector at j. -/
theorem rowBias_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (r : Fin m) (j : Fin n) :
    broadcastInDim ⟨2, ![m, n]⟩ ![0, 1] h2 (broadcastInDim ⟨2, ![1, n]⟩ ![1] h1 b) (ix2 r j) = b (ix1 j) := by
  rw [broadcastInDim_oneRow_apply]
  refine broadcastInDim_apply ![1] h1 b (ix2 (0 : Fin 1) j) (ix1 j) ?_
  intro a
  fin_cases a
  show j.val = if n = 1 then 0 else j.val
  split_ifs with hn
  · have := j.isLt; omega
  · rfl

/-- The hidden layer of row `r` at entry `j`. -/
theorem hid_apply (a2 : FVec Ideal S128x64 .f32) (a3 : FVec Ideal S64 .f32) (x : FVec Ideal S500000x128 .f32)
    (r : Fin 500000) (j : Fin 64) :
    Stages.hid (F := Ideal) a2 a3 x (ix2 r j)
      = Cert.Spec.rowHidden (Cert.Spec.rowOf x r) a2 (fun j => a3 (ix1 j)) j := by
  unfold Stages.hid
  rw [addf_apply, dot1_eq, StackMember.dotGeneral_plain_apply, rowBias_apply]
  rfl

/-- The rectifier of the reference, on one extended real: a select on `0 ≤ h`. -/
theorem leaky_of_ge (h : EReal) :
    Scalar.select (Ideal.cmp .oge h 0) h (Cert.Spec.slope * h) = Cert.Spec.leaky h := by
  unfold Cert.Spec.leaky Ideal.cmp
  by_cases h0 : (0 : EReal) ≤ h
  · rw [show decide ((0 : EReal) ≤ h) = true from decide_eq_true h0]
    show Scalar.select 1#1 h (Cert.Spec.slope * h) = _
    rw [select_one]
    rcases h0.lt_or_eq with hlt | heq
    · rw [if_pos hlt]
    · rw [← heq, if_neg (lt_irrefl _), mul_zero]
  · rw [show decide ((0 : EReal) ≤ h) = false from decide_eq_false h0]
    show Scalar.select 0#1 h (Cert.Spec.slope * h) = _
    rw [select_zero, if_neg (fun hlt => h0 hlt.le)]

/-- The rectified hidden layer at an index. -/
theorem lrelu_apply (h : FVec Ideal S500000x64 .f32) (r : Fin 500000) (j : Fin 64) :
    Stages.lrelu (F := Ideal) h (ix2 r j) = Cert.Spec.leaky (h (ix2 r j)) := by
  unfold Stages.lrelu
  rw [select_apply, cmpf_apply, mulf_apply, broadcastInDim_scalar_apply, broadcastInDim_scalar_apply, id, constant_apply,
    constant_apply, Ideal.ofBits_zero_f32]
  exact leaky_of_ge (h (ix2 r j))

theorem sc_apply (a2 : FVec Ideal S128x64 .f32) (a3 : FVec Ideal S64 .f32) (a4 : FVec Ideal S64x1 .f32) (a5 : FVec Ideal S1 .f32)
    (x : FVec Ideal S500000x128 .f32) (r : Fin 500000) :
    Stages.sc (F := Ideal) a2 a3 a4 a5 x (ix2 r 0) = Cert.Spec.score a2 a3 a4 a5 x r := by
  unfold Stages.sc
  rw [addf_apply, dot2_eq, StackMember.dotGeneral_plain_apply, rowBias_apply]
  unfold Cert.Spec.score Cert.Spec.rowScore
  congr 1
  refine Finset.sum_congr rfl fun j _ => ?_
  rw [lrelu_apply, hid_apply]

end Cert.ReferenceIdeal.RefValue

end
-- ==== Proof.RefValue.lean ====
/-
  The reference's composed stages, read entry by entry, are the normalised-exponential form of the specification.
-/
import proofs.«132624_j17901423690230_1_alg».proof.Proof.RefScore
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Facts₀
open scoped BigOperators

section Entries

variable (a0 a1 : FVec Ideal S500000x128 .f32) (a2 : FVec Ideal S128x64 .f32) (a3 : FVec Ideal S64 .f32)
  (a4 : FVec Ideal S64x1 .f32) (a5 : FVec Ideal S1 .f32)

/-- A score column with a unit axis inserted in the middle. -/
def scB (x : FVec Ideal S500000x128 .f32) : FVec Ideal S500000x1x1 .f32 :=
  broadcastInDim S500000x1x1 ![0, 2] bcast_S500000x1_S500000x1x1_0_2 (Stages.sc (F := Ideal) a2 a3 a4 a5 x)

/-- A score column with a unit axis inserted in the middle, read at (r, 0, 0), is the score of row r. -/
theorem scB_apply (x : FVec Ideal S500000x128 .f32) (r : Fin 500000) :
    scB a2 a3 a4 a5 x (ix3 r 0 0) = Cert.Spec.score a2 a3 a4 a5 x r := by
  refine (broadcastInDim_apply _ _ _ (ix3 r 0 0) (ix2 r 0) fun a => ?_).trans (sc_apply a2 a3 a4 a5 x r)
  match a with
  | ⟨0, _⟩ => rfl
  | ⟨1, _⟩ => rfl

theorem stacked_eq : Stages.stacked (F := Ideal) a0 a1 a2 a3 a4 a5
    = concatenate S500000x2x1 1 [⟨S500000x1x1, scB a2 a3 a4 a5 a0⟩, ⟨S500000x1x1, scB a2 a3 a4 a5 a1⟩]
        concatenates_S500000x1x1_S500000x1x1_S500000x2x1_d1 := rfl

/-- The two score columns side by side, read at (r, 0, 0): the score of row r of the first argument. -/
theorem stacked_apply_zero (r : Fin 500000) :
    Stages.stacked (F := Ideal) a0 a1 a2 a3 a4 a5 (ix3 r 0 0) = Cert.Spec.score a2 a3 a4 a5 a0 r := by
  rw [stacked_eq]
  have hi : ∀ b : Fin S500000x1x1.rank, ((ix3 r 0 0 : S500000x1x1.Idx) b).val
      = ((ix3 r 0 0 : S500000x2x1.Idx) (b.cast (rfl : S500000x1x1.rank = S500000x2x1.rank))).val := fun b => by
    match b with
    | ⟨0, _⟩ => rfl
    | ⟨1, _⟩ => rfl
    | ⟨2, _⟩ => rfl
  exact (concatenate_pair_apply_left (t := S500000x2x1) (s₁ := S500000x1x1) (s₂ := S500000x1x1) 1
    (scB a2 a3 a4 a5 a0) (scB a2 a3 a4 a5 a1) concatenates_S500000x1x1_S500000x1x1_S500000x2x1_d1
    (ix3 r 0 0) rfl (ix3 r 0 0) hi).trans (scB_apply a2 a3 a4 a5 a0 r)

/-- The two score columns side by side, read at (r, 1, 0): the score of row r of the second argument. -/
theorem stacked_apply_one (r : Fin 500000) :
    Stages.stacked (F := Ideal) a0 a1 a2 a3 a4 a5 (ix3 r 1 0) = Cert.Spec.score a2 a3 a4 a5 a1 r := by
  rw [stacked_eq]
  have hi : ∀ b : Fin S500000x1x1.rank, b.cast (rfl : S500000x1x1.rank = S500000x2x1.rank) ≠ (1 : Fin S500000x2x1.rank) →
      ((ix3 r 0 0 : S500000x1x1.Idx) b).val
        = ((ix3 r 1 0 : S500000x2x1.Idx) (b.cast (rfl : S500000x1x1.rank = S500000x2x1.rank))).val := fun b hb => by
    match b with
    | ⟨0, _⟩ => rfl
    | ⟨1, _⟩ => exact absurd rfl hb
    | ⟨2, _⟩ => rfl
  have ha : ((ix3 r 0 0 : S500000x1x1.Idx) ((1 : Fin S500000x2x1.rank).cast (rfl : S500000x1x1.rank = S500000x2x1.rank).symm)).val
      + S500000x1x1.size ((1 : Fin S500000x2x1.rank).cast (rfl : S500000x1x1.rank = S500000x2x1.rank).symm)
      = ((ix3 r 1 0 : S500000x2x1.Idx) 1).val := rfl
  exact (concatenate_pair_apply_right (t := S500000x2x1) (s₁ := S500000x1x1) (s₂ := S500000x1x1) 1
    (scB a2 a3 a4 a5 a0) (scB a2 a3 a4 a5 a1) concatenates_S500000x1x1_S500000x1x1_S500000x2x1_d1
    (ix3 r 1 0) rfl rfl (ix3 r 0 0) hi ha).trans (scB_apply a2 a3 a4 a5 a1 r)

/-- The reduced index (r, 0) with the middle coordinate k put back is (r, k, 0). -/
theorem lift_mid (h : S500000x2x1.Reduces [1] S500000x1) (r : Fin 500000) (k : Fin 2) :
    h.lift (ix2 r 0) k = ix3 r k 0 := by
  funext c
  apply Fin.ext
  match c with
  | ⟨0, _⟩ => rfl
  | ⟨1, _⟩ => rfl
  | ⟨2, _⟩ => rfl

/-- A fold of a commutative, associative operation over the two-element index type. -/
theorem fold_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide]
  rw [Finset.fold_insert (by decide), Finset.fold_singleton]

/-- The single-precision word of minus infinity is the bottom element of the extended reals. -/
theorem ofBits_neg_inf : Ideal.ofBits .f32 0xFF800000#32 = (⊥ : EReal) := by
  simp [Ideal.ofBits, Ideal.ieee]

/-- The reduce with a maximum body from minus infinity over the middle axis, at (r, 0): the larger score of row r. -/
theorem reduceMax_apply (r : Fin 500000) :
    Host.reduce FloatOps.maximumf (Stages.stacked (F := Ideal) a0 a1 a2 a3 a4 a5)
      (constant (F := Ideal) S_ .f32 0xFF800000#32) reducesTo_S500000x2x1_S500000x1_d1 h_S_ (ix2 r 0)
    = max (Cert.Spec.score a2 a3 a4 a5 a0 r) (Cert.Spec.score a2 a3 a4 a5 a1 r) := by
  have h : S500000x2x1.Reduces [1] S500000x1 := by decide
  have e := Host.reduce_eq_fold_single FloatOps.maximumf (Stages.stacked (F := Ideal) a0 a1 a2 a3 a4 a5)
    (constant (F := Ideal) S_ .f32 0xFF800000#32) reducesTo_S500000x2x1_S500000x1_d1 h h_S_ (ix2 r 0)
  have hf : (Stages.stacked (F := Ideal) a0 a1 a2 a3 a4 a5 ∘ h.lift (ix2 r 0))
      = fun k : Fin 2 => Stages.stacked (F := Ideal) a0 a1 a2 a3 a4 a5 (ix3 r k 0) :=
    funext fun k => congrArg (Stages.stacked (F := Ideal) a0 a1 a2 a3 a4 a5) (lift_mid h r k)
  refine e.trans ?_
  rw [constant_apply, ofBits_neg_inf]
  refine (congrArg (fun f => Finset.fold max (⊥ : EReal) f (Finset.univ : Finset (Fin 2))) hf).trans ?_
  refine (fold_fin2 (max : EReal → EReal → EReal) ⊥ _).trans ?_
  rw [stacked_apply_zero, stacked_apply_one, max_bot_right]

/-- Minus infinity broadcast down a column, read at an index. -/
theorem negInf_apply (r : Fin 500000) :
    broadcastInDim S500000x1 ![] bcast_S_S500000x1 (constant (F := Ideal) S_ .f32 0xFF800000#32) (ix2 r 0) = (⊥ : EReal) :=
  (broadcastInDim_apply _ _ _ (ix2 r 0) ix0 (fun a => a.elim0)).trans ((constant_apply _ _).trans ofBits_neg_inf)

/-- The larger of the two scores of row r. -/
theorem rowMax_apply (r : Fin 500000) :
    Stages.rowMax (F := Ideal) a0 a1 a2 a3 a4 a5 (ix2 r 0)
      = max (Cert.Spec.score a2 a3 a4 a5 a0 r) (Cert.Spec.score a2 a3 a4 a5 a1 r) := by
  unfold Stages.rowMax
  refine (maximumf_apply _ _ (ix2 r 0)).trans ?_
  rw [reduceMax_apply, negInf_apply, max_bot_left]

/-- The exponential of an array on the host, at the ideal values, entry by entry. -/
theorem hostExp_apply {s : Shape} (x : FVec Ideal s .f32) (i : s.Idx) : Host.exp x i = Ideal.exp (x i) := rfl

/-- The hyperbolic tangent of an array on the host, at the ideal values, entry by entry. -/
theorem hostTanh_apply {s : Shape} (x : FVec Ideal s .f32) (i : s.Idx) : Host.tanh x i = Ideal.tanh (x i) := rfl

/-- The quotient of two arrays on the host, at the ideal values, entry by entry. -/
theorem hostDivf_apply {s : Shape} (x y : FVec Ideal s .f32) (i : s.Idx) : Host.divf x y i = Ideal.div (x i) (y i) := rfl

/-- The host's sum over some axes, at the ideal values, is the exact sum from the initial value's element. -/
theorem hostReduceAdd_eq {s t u : Shape} {axes : List (Fin s.rank)} (x : FVec Ideal s .f32) (init : u.Idx → Ideal .f32)
    (h : s.ReducesTo axes t) (hu : 0 < u.numel) :
    Host.reduceAdd x init h hu = Ideal.hostReduceAdd h x (init (Shape.Idx.first hu)) := rfl

/-- A column broadcast back over the two middle entries, read at (r, e, 0), is the column at row r. -/
theorem bc2_apply (v : FVec Ideal S500000x1 .f32) (r : Fin 500000) (e : Fin 2) :
    broadcastInDim S500000x2x1 ![0, 1, 2] bcast_S500000x1x1_S500000x2x1_0_1_2
      (broadcastInDim S500000x1x1 ![0, 2] bcast_S500000x1_S500000x1x1_0_2 v) (ix3 r e 0) = v (ix2 r 0) := by
  refine (broadcastInDim_apply _ _ _ (ix3 r e 0) (ix3 r 0 0) fun a => ?_).trans
    (broadcastInDim_apply _ _ _ (ix3 r 0 0) (ix2 r 0) fun a => ?_)
  · match a with
    | ⟨0, _⟩ => rfl
    | ⟨1, _⟩ => rfl
    | ⟨2, _⟩ => rfl
  · match a with
    | ⟨0, _⟩ => rfl
    | ⟨1, _⟩ => rfl

/-- The exponential of a score shifted by its row's larger score. -/
theorem expd_apply (r : Fin 500000) (e : Fin 2) :
    Stages.expd (F := Ideal) a0 a1 a2 a3 a4 a5 (ix3 r e 0)
      = Ideal.exp (Stages.stacked (F := Ideal) a0 a1 a2 a3 a4 a5 (ix3 r e 0)
          - max (Cert.Spec.score a2 a3 a4 a5 a0 r) (Cert.Spec.score a2 a3 a4 a5 a1 r)) := by
  unfold Stages.expd
  refine (hostExp_apply _ _).trans ?_
  rw [subf_apply, bc2_apply, rowMax_apply]

/-- The sum of a row's two exponentials. -/
theorem rowSum_apply (r : Fin 500000) :
    Host.reduceAdd (Stages.expd (F := Ideal) a0 a1 a2 a3 a4 a5) (constant (F := Ideal) S_ .f32 0x00000000#32)
        reducesTo_S500000x2x1_S500000x1_d1 h_S_ (ix2 r 0)
      = Stages.expd (F := Ideal) a0 a1 a2 a3 a4 a5 (ix3 r 0 0) + Stages.expd (F := Ideal) a0 a1 a2 a3 a4 a5 (ix3 r 1 0) := by
  have h : S500000x2x1.Reduces [1] S500000x1 := by decide
  refine (congrFun (hostReduceAdd_eq _ _ _ _) (ix2 r 0)).trans ?_
  refine (Ideal.hostReduceAdd_single reducesTo_S500000x2x1_S500000x1_d1 h _ _ (ix2 r 0)).trans ?_
  rw [constant_apply, Ideal.ofBits_zero_f32, zero_add]
  refine (Fin.sum_univ_two
    (f := fun k : Fin 2 => Stages.expd (F := Ideal) a0 a1 a2 a3 a4 a5 (h.lift (ix2 r 0) k))).trans ?_
  exact congrArg₂ (· + ·) (congrArg _ (lift_mid h r 0)) (congrArg _ (lift_mid h r 1))

/-- The second result at (r, e, 0): the exponential over the row's sum. -/
theorem resB_apply (r : Fin 500000) (e : Fin 2) :
    Stages.resB (F := Ideal) a0 a1 a2 a3 a4 a5 (ix3 r e 0)
      = Ideal.div (Stages.expd (F := Ideal) a0 a1 a2 a3 a4 a5 (ix3 r e 0))
          (Stages.expd (F := Ideal) a0 a1 a2 a3 a4 a5 (ix3 r 0 0) + Stages.expd (F := Ideal) a0 a1 a2 a3 a4 a5 (ix3 r 1 0)) := by
  unfold Stages.resB
  refine (hostDivf_apply _ _ _).trans ?_
  rw [bc2_apply, rowSum_apply]

/-- The second result at (r, 0, 0) is the first normalised exponential of the row's scores. -/
theorem resB_zero (r : Fin 500000) :
    Stages.resB (F := Ideal) a0 a1 a2 a3 a4 a5 (ix3 r 0 0)
      = Cert.Spec.soft0 (Cert.Spec.score a2 a3 a4 a5 a0 r) (Cert.Spec.score a2 a3 a4 a5 a1 r) := by
  rw [resB_apply, expd_apply, expd_apply, stacked_apply_zero, stacked_apply_one]
  unfold Cert.Spec.soft0
  rfl

/-- The second result at (r, 1, 0) is the second normalised exponential of the row's scores. -/
theorem resB_one (r : Fin 500000) :
    Stages.resB (F := Ideal) a0 a1 a2 a3 a4 a5 (ix3 r 1 0)
      = Cert.Spec.soft1 (Cert.Spec.score a2 a3 a4 a5 a0 r) (Cert.Spec.score a2 a3 a4 a5 a1 r) := by
  rw [resB_apply, expd_apply, expd_apply, stacked_apply_zero, stacked_apply_one]
  unfold Cert.Spec.soft1
  rfl

/-- Entry (r, 0, 0) of a stack of column pairs, sliced out, reshaped to a column and broadcast along a row of 128. -/
theorem pick0_apply (v : FVec Ideal S500000x2x1 .f32) (r : Fin 500000) (k : Fin 128) :
    broadcastInDim S500000x128 ![0, 1] bcast_S500000x1_S500000x128_0_1
      (shapeCast S500000x1 (extractStridedSlice S500000x1x1 ![0, 0, 0] v slices_S500000x2x1_S500000x1x1_0_0_0)
        shapeCasts_S500000x1x1_S500000x1) (ix2 r k) = v (ix3 r 0 0) := by
  refine (broadcastInDim_apply _ _ _ (ix2 r k) (ix2 r 0) fun a => ?_).trans ?_
  · match a with
    | ⟨0, _⟩ => rfl
    | ⟨1, _⟩ => rfl
  refine (shapeCast_apply _ _ (ix2 r 0) (ix3 r 0 0) ?_).trans ?_
  · rw [Shape.rowMajor_val_three, Shape.rowMajor_val_two]
    show (r.val * 1 + 0) * 1 + 0 = r.val * 1 + 0
    omega
  refine extractStridedSlice_apply _ _ _ (ix3 r 0 0) (ix3 r 0 0) fun a => ?_
  match a with
  | ⟨0, _⟩ => exact (Nat.zero_add _).symm
  | ⟨1, _⟩ => rfl
  | ⟨2, _⟩ => rfl

/-- Entry (r, 1, 0) of a stack of column pairs, sliced out, reshaped to a column and broadcast along a row of 128. -/
theorem pick1_apply (v : FVec Ideal S500000x2x1 .f32) (r : Fin 500000) (k : Fin 128) :
    broadcastInDim S500000x128 ![0, 1] bcast_S500000x1_S500000x128_0_1
      (shapeCast S500000x1 (extractStridedSlice S500000x1x1 ![0, 1, 0] v slices_S500000x2x1_S500000x1x1_0_1_0)
        shapeCasts_S500000x1x1_S500000x1) (ix2 r k) = v (ix3 r 1 0) := by
  refine (broadcastInDim_apply _ _ _ (ix2 r k) (ix2 r 0) fun a => ?_).trans ?_
  · match a with
    | ⟨0, _⟩ => rfl
    | ⟨1, _⟩ => rfl
  refine (shapeCast_apply _ _ (ix2 r 0) (ix3 r 0 0) ?_).trans ?_
  · rw [Shape.rowMajor_val_three, Shape.rowMajor_val_two]
    show (r.val * 1 + 0) * 1 + 0 = r.val * 1 + 0
    omega
  refine extractStridedSlice_apply _ _ _ (ix3 r 0 0) (ix3 r 1 0) fun a => ?_
  match a with
  | ⟨0, _⟩ => exact (Nat.zero_add _).symm
  | ⟨1, _⟩ => rfl
  | ⟨2, _⟩ => rfl

/-- Row r of the first argument scaled by the row's first weight. -/
theorem weighted0_apply (r : Fin 500000) (k : Fin 128) :
    Stages.weighted0 (F := Ideal) a0 a1 a2 a3 a4 a5 (ix2 r k)
      = Cert.Spec.soft0 (Cert.Spec.score a2 a3 a4 a5 a0 r) (Cert.Spec.score a2 a3 a4 a5 a1 r) * a0 (ix2 r k) := by
  unfold Stages.weighted0
  refine (mulf_apply _ _ _).trans ?_
  rw [pick0_apply, resB_zero]

/-- Row r of the second argument scaled by the row's second weight. -/
theorem weighted1_apply (r : Fin 500000) (k : Fin 128) :
    Stages.weighted1 (F := Ideal) a0 a1 a2 a3 a4 a5 (ix2 r k)
      = Cert.Spec.soft1 (Cert.Spec.score a2 a3 a4 a5 a0 r) (Cert.Spec.score a2 a3 a4 a5 a1 r) * a1 (ix2 r k) := by
  unfold Stages.weighted1
  refine (mulf_apply _ _ _).trans ?_
  rw [pick1_apply, resB_one]

/-- The first result at (r, 0, q): the hyperbolic tangent of the weighted first row in the low half of the columns,
    of the weighted second row in the high half. -/
theorem resZ_apply (r : Fin 500000) (q : Fin 256) :
    Stages.resZ (F := Ideal) a0 a1 a2 a3 a4 a5 (ix3 r 0 q)
      = Cert.Spec.outZ (Cert.Spec.soft0 (Cert.Spec.score a2 a3 a4 a5 a0 r) (Cert.Spec.score a2 a3 a4 a5 a1 r))
          (Cert.Spec.soft1 (Cert.Spec.score a2 a3 a4 a5 a0 r) (Cert.Spec.score a2 a3 a4 a5 a1 r))
          (Cert.Spec.rowOf a0 r) (Cert.Spec.rowOf a1 r) q := by
  unfold Stages.resZ
  refine (broadcastInDim_apply _ _ _ (ix3 r 0 q) (ix2 r q) fun a => ?_).trans ?_
  · match a with
    | ⟨0, _⟩ => rfl
    | ⟨1, _⟩ => rfl
  refine (hostTanh_apply _ _).trans ?_
  unfold Cert.Spec.outZ
  by_cases hq : q.val < 128
  · rw [dif_pos hq]
    refine congrArg Ideal.tanh ?_
    have hi : ∀ b : Fin S500000x128.rank, ((ix2 r ⟨q.val, hq⟩ : S500000x128.Idx) b).val
        = ((ix2 r q : S500000x256.Idx) (b.cast (rfl : S500000x128.rank = S500000x256.rank))).val := fun b => by
      match b with
      | ⟨0, _⟩ => rfl
      | ⟨1, _⟩ => rfl
    refine (concatenate_pair_apply_left (t := S500000x256) (s₁ := S500000x128) (s₂ := S500000x128) 1
      (Stages.weighted0 (F := Ideal) a0 a1 a2 a3 a4 a5) (Stages.weighted1 (F := Ideal) a0 a1 a2 a3 a4 a5)
      concatenates_S500000x128_S500000x128_S500000x256_d1 (ix2 r q) rfl (ix2 r ⟨q.val, hq⟩) hi).trans ?_
    rw [weighted0_apply]
    rfl
  · rw [dif_neg hq]
    refine congrArg Ideal.tanh ?_
    have hq' : q.val - 128 < 128 := by have := q.isLt; omega
    have hi : ∀ b : Fin S500000x128.rank,
        b.cast (rfl : S500000x128.rank = S500000x256.rank) ≠ (1 : Fin S500000x256.rank) →
        ((ix2 r ⟨q.val - 128, hq'⟩ : S500000x128.Idx) b).val
          = ((ix2 r q : S500000x256.Idx) (b.cast (rfl : S500000x128.rank = S500000x256.rank))).val := fun b hb => by
      match b with
      | ⟨0, _⟩ => rfl
      | ⟨1, _⟩ => exact absurd rfl hb
    have ha : ((ix2 r ⟨q.val - 128, hq'⟩ : S500000x128.Idx)
          ((1 : Fin S500000x256.rank).cast (rfl : S500000x128.rank = S500000x256.rank).symm)).val
        + S500000x128.size ((1 : Fin S500000x256.rank).cast (rfl : S500000x128.rank = S500000x256.rank).symm)
        = ((ix2 r q : S500000x256.Idx) 1).val := by
      show (q.val - 128) + 128 = q.val
      omega
    refine (concatenate_pair_apply_right (t := S500000x256) (s₁ := S500000x128) (s₂ := S500000x128) 1
      (Stages.weighted0 (F := Ideal) a0 a1 a2 a3 a4 a5) (Stages.weighted1 (F := Ideal) a0 a1 a2 a3 a4 a5)
      concatenates_S500000x128_S500000x128_S500000x256_d1 (ix2 r q) rfl rfl (ix2 r ⟨q.val - 128, hq'⟩) hi ha).trans ?_
    rw [weighted1_apply]
    rfl

end Entries

theorem resZ_eq (a0 a1 : FVec Ideal S500000x128 .f32) (a2 : FVec Ideal S128x64 .f32) (a3 : FVec Ideal S64 .f32)
    (a4 : FVec Ideal S64x1 .f32) (a5 : FVec Ideal S1 .f32) :
    Stages.resZ (F := Ideal) a0 a1 a2 a3 a4 a5 = Cert.Spec.softZ a0 a1 a2 a3 a4 a5 := by
  funext i
  obtain ⟨r, u, q, rfl⟩ : ∃ (r : Fin 500000) (u : Fin 1) (q : Fin 256), i = ix3 r u q := ⟨i 0, i 1, i 2, eq_ix3 i⟩
  obtain rfl : u = 0 := Subsingleton.elim _ _
  exact resZ_apply a0 a1 a2 a3 a4 a5 r q

theorem resB_eq (a0 a1 : FVec Ideal S500000x128 .f32) (a2 : FVec Ideal S128x64 .f32) (a3 : FVec Ideal S64 .f32)
    (a4 : FVec Ideal S64x1 .f32) (a5 : FVec Ideal S1 .f32) :
    Stages.resB (F := Ideal) a0 a1 a2 a3 a4 a5 = Cert.Spec.softB a0 a1 a2 a3 a4 a5 := by
  funext i
  obtain ⟨r, e, z, rfl⟩ : ∃ (r : Fin 500000) (e : Fin 2) (z : Fin 1), i = ix3 r e z := ⟨i 0, i 1, i 2, eq_ix3 i⟩
  obtain rfl : z = 0 := Subsingleton.elim _ _
  show _ = Cert.Spec.outB (Cert.Spec.soft0 (Cert.Spec.score a2 a3 a4 a5 a0 r) (Cert.Spec.score a2 a3 a4 a5 a1 r))
    (Cert.Spec.soft1 (Cert.Spec.score a2 a3 a4 a5 a0 r) (Cert.Spec.score a2 a3 a4 a5 a1 r)) e
  unfold Cert.Spec.outB
  match e with
  | ⟨0, _⟩ => exact (resB_zero a0 a1 a2 a3 a4 a5 r).trans (if_pos rfl).symm
  | ⟨1, _⟩ => exact (resB_one a0 a1 a2 a3 a4 a5 r).trans (if_neg Nat.one_ne_zero).symm

end Cert.ReferenceIdeal.RefValue

end
-- ==== Proof.Law.lean ====
/-
  The two-way softmax is a pair of logistic functions, on real scores.
-/
import proofs.«132624_j17901423690230_1_alg».proof.Proof.Spec

noncomputable section

namespace Cert.Spec

open Idealize.ShloMosaic Idealize.ShloMosaic.ValueIdx
open scoped BigOperators

/-! ### Real numbers inside the extended reals are closed under the operations used -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The slope is a finite number: its exponent field is neither all zeros nor all ones. -/
theorem slope_isReal : IsReal slope := by
  unfold slope Ideal.ofBits Ideal.ieee
  simp only []
  rw [if_neg (by decide), if_neg (by decide)]
  exact ⟨_, rfl⟩

theorem leaky_isReal {h : EReal} (hh : IsReal h) : IsReal (leaky h) := by
  unfold leaky
  split
  · exact hh
  · exact slope_isReal.mul hh

/-! ### The identity on the reals: for any shift `m`, the normalised exponentials are logistic functions -/

theorem real_soft0 (a b m : ℝ) :
    Real.exp (a - m) * (1 / (Real.exp (a - m) + Real.exp (b - m))) = (1 + Real.exp (-(a - b)))⁻¹ := by
  have hu : 0 < Real.exp (a - m) := Real.exp_pos _
  have hv : 0 < Real.exp (b - m) := Real.exp_pos _
  have he : Real.exp (-(a - b)) = Real.exp (b - m) / Real.exp (a - m) := by
    rw [← Real.exp_sub]; congr 1; ring
  rw [he]
  field_simp

theorem real_soft1 (a b m : ℝ) :
    Real.exp (b - m) * (1 / (Real.exp (a - m) + Real.exp (b - m))) = (1 + Real.exp (-(0 - (a - b))))⁻¹ := by
  have hu : 0 < Real.exp (a - m) := Real.exp_pos _
  have hv : 0 < Real.exp (b - m) := Real.exp_pos _
  have he : Real.exp (-(0 - (a - b))) = Real.exp (a - m) / Real.exp (b - m) := by
    rw [← Real.exp_sub]; congr 1; ring
  rw [he]
  field_simp
  ring

theorem coe_max' (a b : ℝ) : max (a : EReal) (b : EReal) = ((max a b : ℝ) : EReal) :=
  (EReal.coe_strictMono.monotone.map_max).symm

theorem soft0_eq_gate0 {s1 s2 : EReal} (h1 : IsReal s1) (h2 : IsReal s2) : soft0 s1 s2 = gate0 s1 s2 := by
  obtain ⟨a, rfl⟩ := h1
  obtain ⟨b, rfl⟩ := h2
  have hne : Real.exp (a - max a b) + Real.exp (b - max a b) ≠ 0 :=
    (add_pos (Real.exp_pos _) (Real.exp_pos _)).ne'
  unfold soft0 gate0
  rw [coe_max', ← EReal.coe_sub, ← EReal.coe_sub, ← EReal.coe_sub, Ideal.exp_coe, Ideal.exp_coe, ← EReal.coe_add,
    Ideal.div_coe hne, ← EReal.coe_mul, Ideal.logistic_coe, real_soft0]

theorem soft1_eq_gate1 {s1 s2 : EReal} (h1 : IsReal s1) (h2 : IsReal s2) : soft1 s1 s2 = gate1 s1 s2 := by
  obtain ⟨a, rfl⟩ := h1
  obtain ⟨b, rfl⟩ := h2
  have hne : Real.exp (a - max a b) + Real.exp (b - max a b) ≠ 0 :=
    (add_pos (Real.exp_pos _) (Real.exp_pos _)).ne'
  have h0 : (0 : EReal) - ((a : EReal) - (b : EReal)) = ((0 - (a - b) : ℝ) : EReal) := by
    rw [EReal.coe_sub, EReal.coe_sub, EReal.coe_zero]
  unfold soft1 gate1
  rw [h0, coe_max', ← EReal.coe_sub, ← EReal.coe_sub, Ideal.exp_coe, Ideal.exp_coe, ← EReal.coe_add,
    Ideal.div_coe hne, ← EReal.coe_mul, Ideal.logistic_coe, real_soft1]

theorem rowScore_isReal {xr : Fin 128 → EReal} {W1 : SW1.Idx → EReal} {b1 : Fin 64 → EReal} {w2 : Fin 64 → EReal} {b2 : EReal}
    (hx : ∀ k, IsReal (xr k)) (hW : ∀ i, IsReal (W1 i)) (hb1 : ∀ j, IsReal (b1 j)) (hw2 : ∀ j, IsReal (w2 j)) (hb2 : IsReal b2) :
    IsReal (rowScore xr W1 b1 w2 b2) := by
  unfold rowScore
  refine IsReal.add (IsReal.sum _ _ fun j _ => IsReal.mul (leaky_isReal ?_) (hw2 j)) hb2
  unfold rowHidden
  exact IsReal.add (IsReal.sum _ _ fun k _ => IsReal.mul (hx k) (hW _)) (hb1 j)

theorem score_isReal (x : SX.Idx → EReal) (a2 : SW1.Idx → EReal) (a3 : SB1.Idx → EReal) (a4 : SW2.Idx → EReal) (a5 : SB2.Idx → EReal)
    (hx : ∀ i, IsReal (x i)) (h2 : ∀ i, IsReal (a2 i)) (h3 : ∀ i, IsReal (a3 i)) (h4 : ∀ i, IsReal (a4 i))
    (h5 : ∀ i, IsReal (a5 i)) (r : Fin 500000) : IsReal (score a2 a3 a4 a5 x r) := by
  unfold score
  exact rowScore_isReal (fun k => hx _) h2 (fun j => h3 _) (fun j => h4 _) (h5 _)

theorem softZ_eq_gateZ (a0 a1 : SX.Idx → EReal) (a2 : SW1.Idx → EReal) (a3 : SB1.Idx → EReal) (a4 : SW2.Idx → EReal) (a5 : SB2.Idx → EReal)
    (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) : softZ a0 a1 a2 a3 a4 a5 = gateZ a0 a1 a2 a3 a4 a5 := by
  funext i
  unfold softZ gateZ
  rw [soft0_eq_gate0 (score_isReal a0 a2 a3 a4 a5 h0 h2 h3 h4 h5 (i 0)) (score_isReal a1 a2 a3 a4 a5 h1 h2 h3 h4 h5 (i 0)),
    soft1_eq_gate1 (score_isReal a0 a2 a3 a4 a5 h0 h2 h3 h4 h5 (i 0)) (score_isReal a1 a2 a3 a4 a5 h1 h2 h3 h4 h5 (i 0))]

theorem softB_eq_gateB (a0 a1 : SX.Idx → EReal) (a2 : SW1.Idx → EReal) (a3 : SB1.Idx → EReal) (a4 : SW2.Idx → EReal) (a5 : SB2.Idx → EReal)
    (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) : softB a0 a1 a2 a3 a4 a5 = gateB a0 a1 a2 a3 a4 a5 := by
  funext i
  unfold softB gateB
  rw [soft0_eq_gate0 (score_isReal a0 a2 a3 a4 a5 h0 h2 h3 h4 h5 (i 0)) (score_isReal a1 a2 a3 a4 a5 h1 h2 h3 h4 h5 (i 0)),
    soft1_eq_gate1 (score_isReal a0 a2 a3 a4 a5 h0 h2 h3 h4 h5 (i 0)) (score_isReal a1 a2 a3 a4 a5 h1 h2 h3 h4 h5 (i 0))]

end Cert.Spec

end
-- ==== Proof.Finite.lean ====
/-
  Under the precondition every entry of every argument array is a real number.
-/
import proofs.«132624_j17901423690230_1_alg».proof.Pre_finite_inputs
import proofs.«132624_j17901423690230_1_alg».proof.Proof.Spec
import Idealize.ShloMosaic.Lib.ReduceAll

noncomputable section

namespace Cert.FiniteInputs

open Idealize.ShloMosaic Cert.Pre_finite_inputs

/-- The rank-zero shape has a single index. -/
local instance : Subsingleton S_.Idx := ⟨fun a b => funext fun d => d.elim0⟩

/-- An extended real whose absolute value, the larger of x and -x, lies below the top element is a real number. -/
theorem isReal_of_abs_lt_top (x : EReal) (h : max x (-x) < ⊤) : Cert.Spec.IsReal x := by
  rw [max_lt_iff] at h
  induction x using EReal.rec with
  | bot => exact absurd h.2 (by simp)
  | coe r => exact ⟨r, rfl⟩
  | top => exact absurd h.1 (by simp)

/-- The single-precision word 0x7F800000 denotes the top element. -/
theorem inf_word : Ideal.ofBits .f32 0x7F800000#32 = (⊤ : EReal) := by simp [Ideal.ofBits, Ideal.ieee]

/-- One array: when the conjunction over all entries of |x| < +∞ came out true, every entry is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
        (constantI S_ 1 1#1) hr hu ValueIdx.ix0 = 1#1) :
    ∀ i, Cert.Spec.IsReal (a i) := by
  intro i
  have h1 := Host.reduce_andi_all _ _ hr hu ValueIdx.ix0 e i
  have h2 : Ideal.cmp .olt (max (a i : EReal) (-(a i : EReal))) (Ideal.ofBits .f32 0x7F800000#32) = 1#1 := h1
  rw [inf_word] at h2
  apply isReal_of_abs_lt_top
  by_contra hn
  simp [Ideal.cmp, hn] at h2

theorem real_of_pre [Cert.Pre_finite_inputs.Facts] (a0 a1 : FVec Ideal S500000x128 .f32) (a2 : FVec Ideal S128x64 .f32)
    (a3 : FVec Ideal S64 .f32) (a4 : FVec Ideal S64x1 .f32) (a5 : FVec Ideal S1 .f32)
    (h : Cert.Pre_finite_inputs.fn (F := Ideal) a0 a1 a2 a3 a4 a5 = fun _ => 1#1) :
    (∀ i, Cert.Spec.IsReal (a0 i)) ∧ (∀ i, Cert.Spec.IsReal (a1 i)) ∧ (∀ i, Cert.Spec.IsReal (a2 i)) ∧ (∀ i, Cert.Spec.IsReal (a3 i))
      ∧ (∀ i, Cert.Spec.IsReal (a4 i)) ∧ (∀ i, Cert.Spec.IsReal (a5 i)) := by
  have h0 := congrFun h ValueIdx.ix0
  unfold Cert.Pre_finite_inputs.fn Cert.Pre_finite_inputs.fn_part1 at h0
  dsimp only at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4, real_of_all a5 _ _ _ e5⟩

end Cert.FiniteInputs

end
-- ==== Proof.lean ====
/-
  The certificate's five claims.

  Both programs compute, for every row `r`, the scores `s1`, `s2` of row `r` of the two input arrays under a two-layer
  perceptron with a leaky rectifier, turn them into two weights, and return `tanh` of the weighted rows side by side
  together with the weights. The kernel writes the weights as logistic functions of `s1 - s2` and of its negation; the
  reference as the two-way softmax `e^(s_i - max) / (e^(s1 - max) + e^(s2 - max))`. On real scores these agree:
  dividing numerator and denominator by the numerator turns the softmax into `1 / (1 + e^(s_j - s_i))`. The scores are
  real because the precondition makes every input entry real, and sums, products and the rectifier keep reals real. The
  kernel's strict comparison `0 < h` and the reference's `0 ≤ h` in the rectifier differ only at `h = 0`, where both
  branches give `0`.

  The three frames are the generated frame runs (the reference's is its run with the results dropped); the idealization
  rewrote nothing, so `preserves` is trivial.
-/
import proofs.«132624_j17901423690230_1_alg».proof.Defs
import proofs.«132624_j17901423690230_1_alg».proof.Proof.Gen.Kernel
import proofs.«132624_j17901423690230_1_alg».proof.Proof.Gen.Kernel.Skeleton
import proofs.«132624_j17901423690230_1_alg».proof.Proof.Gen.Kernel.Launch
import proofs.«132624_j17901423690230_1_alg».proof.Proof.Gen.Kernel.Points
import proofs.«132624_j17901423690230_1_alg».proof.Proof.Gen.Kernel.Frame
import proofs.«132624_j17901423690230_1_alg».proof.Proof.Gen.KernelIdeal
import proofs.«132624_j17901423690230_1_alg».proof.Proof.Gen.KernelIdeal.Skeleton
import proofs.«132624_j17901423690230_1_alg».proof.Proof.Gen.KernelIdeal.Launch
import proofs.«132624_j17901423690230_1_alg».proof.Proof.Gen.KernelIdeal.Points
import proofs.«132624_j17901423690230_1_alg».proof.Proof.Gen.KernelIdeal.Frame
import proofs.«132624_j17901423690230_1_alg».proof.Proof.Gen.ReferenceIdeal
import proofs.«132624_j17901423690230_1_alg».proof.Proof.Gen.Pre_finite_inputs
import proofs.«132624_j17901423690230_1_alg».proof.Proof.KValue
import proofs.«132624_j17901423690230_1_alg».proof.Proof.RefRun
import proofs.«132624_j17901423690230_1_alg».proof.Proof.RefValue
import proofs.«132624_j17901423690230_1_alg».proof.Proof.Law
import proofs.«132624_j17901423690230_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- Both runs end at the logistic form of the specification: the kernel's by its value run, the reference's because its
    composed stages are the softmax form, which on the real scores the precondition gives is the logistic form. -/
theorem algebraic : Cert.algebraic_KernelIdeal_ReferenceIdeal := by
  intro m ρ m' ρ' hpre hagree
  refine ⟨fun c => Cert.Spec.gateZ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.gateB (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ?_) (Cert.ReferenceIdeal.RefRun.run (F := Ideal) m' ρ')
  obtain ⟨hZ, hB, hk⟩ := h c
  obtain ⟨e0, e1, e2, e3, e4, e5⟩ := hagree c
  obtain ⟨r0, r1, r2, r3, r4, r5⟩ := Cert.FiniteInputs.real_of_pre _ _ _ _ _ _ (hpre c)
  refine ⟨?_, ?_, hk⟩
  · rw [hZ, e0, e1, e2, e3, e4, e5, Cert.ReferenceIdeal.RefValue.resZ_eq]
    exact Cert.Spec.softZ_eq_gateZ _ _ _ _ _ _ r0 r1 r2 r3 r4 r5
  · rw [hB, e0, e1, e2, e3, e4, e5, Cert.ReferenceIdeal.RefValue.resB_eq]
    exact Cert.Spec.softB_eq_gateB _ _ _ _ _ _ r0 r1 r2 r3 r4 r5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
